-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v92) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x3200000 : Shape := ⟨2, ![2, 3200000]⟩
abbrev S100000 : Shape := ⟨1, ![100000]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel

variable [Facts]

def fn {F : FTy → Type} [FloatOps F] (main_arg0 : FVec F S100000x3 .f32) (main_arg1 : IVec S2x3200000 32) (main_arg2 : IVec S100000 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  main_v3
-- ==== Kernel.lean ====
abbrev S100000x3 : Shape := ⟨2, ![100000, 3]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S100000x1 : Shape := ⟨2, ![100000, 1]⟩
abbrev S_ : Shape := ⟨0, ![]⟩
abbrev S3200000x1 : Shape := ⟨2, ![3200000, 1]⟩
abbrev S25000x128 : Shape := ⟨2, ![25000, 128]⟩
abbrev S5000x128 : Shape := ⟨2, ![5000, 128]⟩
abbrev S3200000x3 : Shape := ⟨2, ![3200000, 3]⟩
abbrev S64 : Shape := ⟨1, ![64]⟩

abbrev nBuf : Space → Nat
  | .hbm => 119
  | .vmem => 14
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S100000, .i32⟩
  | .hbm, ⟨3, _⟩ => ⟨S1x3200000, .i32⟩
  | .hbm, ⟨4, _⟩ => ⟨S3200000, .i32⟩
  | .hbm, ⟨5, _⟩ => ⟨S1x3200000, .i32⟩
  | .hbm, ⟨6, _⟩ => ⟨S3200000, .i32⟩
  | .hbm, ⟨7, _⟩ => ⟨S100000x1, .f32⟩
  | .hbm, ⟨8, _⟩ => ⟨S100000, .f32⟩
  | .hbm, ⟨9, _⟩ => ⟨S100000x1, .f32⟩
  | .hbm, ⟨10, _⟩ => ⟨S100000, .f32⟩
  | .hbm, ⟨11, _⟩ => ⟨S100000x1, .f32⟩
  | .hbm, ⟨12, _⟩ => ⟨S100000, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000, .f32⟩
  | .hbm, ⟨31, _⟩ => ⟨S3200000, .f32⟩
  | .hbm, ⟨32, _⟩ => ⟨S25000x128, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000, .f32⟩
  | .hbm, ⟨42, _⟩ => ⟨S_, .i32⟩
  | .hbm, ⟨43, _⟩ => ⟨S3200000, .i32⟩
  | .hbm, ⟨44, _⟩ => ⟨S3200000, .i1⟩
  | .hbm, ⟨45, _⟩ => ⟨S_, .i32⟩
  | .hbm, ⟨46, _⟩ => ⟨S3200000, .i32⟩
  | .hbm, ⟨47, _⟩ => ⟨S3200000, .i32⟩
  | .hbm, ⟨48, _⟩ => ⟨S3200000, .i32⟩
  | .hbm, ⟨49, _⟩ => ⟨S3200000x1, .i32⟩
  | .hbm, ⟨50, _⟩ => ⟨S3200000, .f32⟩
  | .hbm, ⟨51, _⟩ => ⟨S3200000, .f32⟩
  | .hbm, ⟨52, _⟩ => ⟨S25000x128, .f32⟩
  | .hbm, ⟨53, _⟩ => ⟨S_, .i32⟩
  | .hbm, ⟨54, _⟩ => ⟨S3200000, .i32⟩
  | .hbm, ⟨55, _⟩ => ⟨S3200000, .i1⟩
  | .hbm, ⟨56, _⟩ => ⟨S_, .i32⟩
  | .hbm, ⟨57, _⟩ => ⟨S3200000, .i32⟩
  | .hbm, ⟨58, _⟩ => ⟨S3200000, .i32⟩
  | .hbm, ⟨59, _⟩ => ⟨S3200000, .i32⟩
  | .hbm, ⟨60, _⟩ => ⟨S3200000x1, .i32⟩
  | .hbm, ⟨61, _⟩ => ⟨S3200000, .f32⟩
  | .hbm, ⟨62, _⟩ => ⟨S_, .i32⟩
  | .hbm, ⟨63, _⟩ => ⟨S3200000, .i32⟩
  | .hbm, ⟨64, _⟩ => ⟨S3200000, .i1⟩
  | .hbm, ⟨65, _⟩ => ⟨S_, .i32⟩
  | .hbm, ⟨66, _⟩ => ⟨S3200000, .i32⟩
  | .hbm, ⟨67, _⟩ => ⟨S3200000, .i32⟩
  | .hbm, ⟨68, _⟩ => ⟨S3200000, .i32⟩
  | .hbm, ⟨69, _⟩ => ⟨S3200000x1, .i32⟩
  | .hbm, ⟨70, _⟩ => ⟨S3200000, .f32⟩
  | .hbm, ⟨71, _⟩ => ⟨S3200000, .f32⟩
  | .hbm, ⟨72, _⟩ => ⟨S25000x128, .f32⟩
  | .hbm, ⟨73, _⟩ => ⟨S25000x128, .f32⟩
  | .hbm, ⟨74, _⟩ => ⟨S25000x128, .f32⟩
  | .hbm, ⟨75, _⟩ => ⟨S25000x128, .f32⟩
  | .hbm, ⟨76, _⟩ => ⟨S25000x128, .f32⟩
  | .hbm, ⟨77, _⟩ => ⟨S3200000, .f32⟩
  | .hbm, ⟨78, _⟩ => ⟨S3200000, .f32⟩
  | .hbm, ⟨79, _⟩ => ⟨S3200000, .f32⟩
  | .hbm, ⟨80, _⟩ => ⟨S3200000, .f32⟩
  | .hbm, ⟨81, _⟩ => ⟨S3200000x1, .f32⟩
  | .hbm, ⟨82, _⟩ => ⟨S3200000x1, .f32⟩
  | .hbm, ⟨83, _⟩ => ⟨S3200000x1, .f32⟩
  | .hbm, ⟨84, _⟩ => ⟨S3200000x3, .f32⟩
  | .hbm, ⟨85, _⟩ => ⟨S_, .i32⟩
  | .hbm, ⟨86, _⟩ => ⟨S3200000, .i32⟩
  | .hbm, ⟨87, _⟩ => ⟨S3200000, .i1⟩
  | .hbm, ⟨88, _⟩ => ⟨S_, .i32⟩
  | .hbm, ⟨89, _⟩ => ⟨S3200000, .i32⟩
  | .hbm, ⟨90, _⟩ => ⟨S3200000, .i32⟩
  | .hbm, ⟨91, _⟩ => ⟨S3200000, .i32⟩
  | .hbm, ⟨92, _⟩ => ⟨S3200000x1, .i32⟩
  | .hbm, ⟨93, _⟩ => ⟨S3200000, .i32⟩
  | .hbm, ⟨94, _⟩ => ⟨S_, .f32⟩
  | .hbm, ⟨95, _⟩ => ⟨S64, .f32⟩
  | .hbm, ⟨96, _⟩ => ⟨S3200000x1, .i32⟩
  | .hbm, ⟨97, _⟩ => ⟨S64, .f32⟩
  | .hbm, ⟨98, _⟩ => ⟨S_, .f32⟩
  | .hbm, ⟨99, _⟩ => ⟨S100000x3, .f32⟩
  | .hbm, ⟨100, _⟩ => ⟨S3200000x3, .f32⟩
  | .hbm, ⟨101, _⟩ => ⟨S_, .i32⟩
  | .hbm, ⟨102, _⟩ => ⟨S3200000, .i32⟩
  | .hbm, ⟨103, _⟩ => ⟨S3200000, .i1⟩
  | .hbm, ⟨104, _⟩ => ⟨S_, .i32⟩
  | .hbm, ⟨105, _⟩ => ⟨S3200000, .i32⟩
  | .hbm, ⟨106, _⟩ => ⟨S3200000, .i32⟩
  | .hbm, ⟨107, _⟩ => ⟨S3200000, .i32⟩
  | .hbm, ⟨108, _⟩ => ⟨S3200000x1, .i32⟩
  | .hbm, ⟨109, _⟩ => ⟨S100000x3, .f32⟩
  | .hbm, ⟨110, _⟩ => ⟨S_, .i32⟩
  | .hbm, ⟨111, _⟩ => ⟨S3200000, .i32⟩
  | .hbm, ⟨112, _⟩ => ⟨S3200000, .i1⟩
  | .hbm, ⟨113, _⟩ => ⟨S_, .i32⟩
  | .hbm, ⟨114, _⟩ => ⟨S3200000, .i32⟩
  | .hbm, ⟨115, _⟩ => ⟨S3200000, .i32⟩
  | .hbm, ⟨116, _⟩ => ⟨S3200000, .i32⟩
  | .hbm, ⟨117, _⟩ => ⟨S3200000x1, .i32⟩
  | .hbm, ⟨118, _⟩ => ⟨S100000x3, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_v17 : Ref sig .tc := ⟨.hbm, 23, rfl⟩
abbrev main_v18 : Ref sig .tc := ⟨.hbm, 24, rfl⟩
abbrev main_c_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_3 : Ref sig .tc := ⟨.hbm, 33, rfl⟩
abbrev main_v26 : Ref sig .tc := ⟨.hbm, 34, rfl⟩
abbrev main_v27 : Ref sig .tc := ⟨.hbm, 35, rfl⟩
abbrev main_c_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_5 : Ref sig .tc := ⟨.hbm, 42, rfl⟩
abbrev main_v33 : Ref sig .tc := ⟨.hbm, 43, rfl⟩
abbrev main_v34 : Ref sig .tc := ⟨.hbm, 44, rfl⟩
abbrev main_c_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_7 : Ref sig .tc := ⟨.hbm, 53, rfl⟩
abbrev main_v42 : Ref sig .tc := ⟨.hbm, 54, rfl⟩
abbrev main_v43 : Ref sig .tc := ⟨.hbm, 55, rfl⟩
abbrev main_c_8 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_9 : Ref sig .tc := ⟨.hbm, 62, rfl⟩
abbrev main_v49 : Ref sig .tc := ⟨.hbm, 63, rfl⟩
abbrev main_v50 : Ref sig .tc := ⟨.hbm, 64, rfl⟩
abbrev main_c_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58_0 : Ref sig .tc := ⟨.hbm, 73, rfl⟩
abbrev main_v58_1 : Ref sig .tc := ⟨.hbm, 74, rfl⟩
abbrev main_v58_2 : Ref sig .tc := ⟨.hbm, 75, rfl⟩
abbrev main_v58_3 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_c_11 : Ref sig .tc := ⟨.hbm, 85, rfl⟩
abbrev main_v67 : Ref sig .tc := ⟨.hbm, 86, rfl⟩
abbrev main_v68 : Ref sig .tc := ⟨.hbm, 87, rfl⟩
abbrev main_c_12 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_13 : Ref sig .tc := ⟨.hbm, 98, rfl⟩
abbrev main_v77 : Ref sig .tc := ⟨.hbm, 99, rfl⟩
abbrev main_v78 : Ref sig .tc := ⟨.hbm, 100, rfl⟩
abbrev main_c_14 : Ref sig .tc := ⟨.hbm, 101, rfl⟩
abbrev main_v79 : Ref sig .tc := ⟨.hbm, 102, rfl⟩
abbrev main_v80 : Ref sig .tc := ⟨.hbm, 103, rfl⟩
abbrev main_c_15 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_c_16 : Ref sig .tc := ⟨.hbm, 110, rfl⟩
abbrev main_v86 : Ref sig .tc := ⟨.hbm, 111, rfl⟩
abbrev main_v87 : Ref sig .tc := ⟨.hbm, 112, rfl⟩
abbrev main_c_17 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  slices_S100000x3_S100000x1_0_0 : S100000x3.Slices ![0, 0] S100000x1
  shapeCasts_S100000x1_S100000 : S100000x1.ShapeCasts S100000
  slices_S100000x3_S100000x1_0_1 : S100000x3.Slices ![0, 1] S100000x1
  slices_S100000x3_S100000x1_0_2 : S100000x3.Slices ![0, 2] S100000x1
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S3200000_S25000x128 : S3200000.ShapeCasts S25000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S25000x128_S3200000 : S25000x128.ShapeCasts S3200000
  concatenates_S3200000x1_S3200000x1_S3200000x1_S3200000x3_d1 : Shape.Concatenates [S3200000x1, S3200000x1, S3200000x1] S3200000x3 1
  bcast_S_S64 : S_.BroadcastsInDim S64 (![] : Fin 0 → Fin S64.rank)
  bcast_S_S100000x3 : S_.BroadcastsInDim S100000x3 (![] : Fin 0 → Fin S100000x3.rank)
  gather_S100000_S3200000x1_S3200000_n_0_n_n_0_1_1_wf : GatherDims.WF S100000 S3200000x1 S3200000 [] [0] [] [0] [] 1 ![1]
  scatter_S64_S3200000x1_S3200000_n_0_0_1_wf : ScatterDims.WF S64 S3200000x1 S3200000 [] [0] [0] 1
  scatter_S100000x3_S3200000x1_S3200000x3_1_0_0_1_wf : ScatterDims.WF S100000x3 S3200000x1 S3200000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S25000x128.size a
  hwx0_0 : ∀ i : grid0.Coords, EltTy.bits .f32 = 32 ∨ (Rect.block (s := S25000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S25000x128.size a
  hwx0_1 : ∀ i : grid0.Coords, EltTy.bits .f32 = 32 ∨ (Rect.block (s := S25000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S25000x128.size a
  hwx0_2 : ∀ i : grid0.Coords, EltTy.bits .f32 = 32 ∨ (Rect.block (s := S25000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S25000x128.size a
  hwx0_3 : ∀ i : grid0.Coords, EltTy.bits .f32 = 32 ∨ (Rect.block (s := S25000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S25000x128.size a
  hwx0_4 : ∀ i : grid0.Coords, EltTy.bits .f32 = 32 ∨ (Rect.block (s := S25000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S25000x128.size a
  hwx0_5 : ∀ i : grid0.Coords, EltTy.bits .f32 = 32 ∨ (Rect.block (s := S25000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S25000x128.size a
  hwx0_6 : ∀ i : grid0.Coords, EltTy.bits .f32 = 32 ∨ (Rect.block (s := S25000x128) S5000x128.size (cc0_transform_6 i) (hinb0_6 i)).WholeWords (EltTy.packing .f32)

variable [Facts₀]

def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def scatter_S64_S3200000x1_S3200000_n_0_0_1 : ScatterDims S64 S3200000x1 S3200000 where
  updateWindowDims := []
  insertedWindowDims := [0]
  scatterDimsToOperandDims := [0]
  indexVectorDim := 1
  wf := scatter_S64_S3200000x1_S3200000_n_0_0_1_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf

abbrev win0_0 : Pipeline.Window sig grid0 :=
  Pipeline.Window.ofSpec (Memref.whole main_v25) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v57) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v58_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v58_1) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v58_2) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v58_3) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x3 : Shape := ⟨2, ![100000, 3]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x3 : Shape := ⟨2, ![3200000, 3]⟩
abbrev S64 : Shape := ⟨1, ![64]⟩

abbrev nBuf : Space → Nat
  | .hbm => 83
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S100000, .i32⟩
  | .hbm, ⟨3, _⟩ => ⟨S1x3200000, .i32⟩
  | .hbm, ⟨4, _⟩ => ⟨S3200000, .i32⟩
  | .hbm, ⟨5, _⟩ => ⟨S1x3200000, .i32⟩
  | .hbm, ⟨6, _⟩ => ⟨S3200000, .i32⟩
  | .hbm, ⟨7, _⟩ => ⟨S_, .i32⟩
  | .hbm, ⟨8, _⟩ => ⟨S3200000, .i32⟩
  | .hbm, ⟨9, _⟩ => ⟨S3200000, .i1⟩
  | .hbm, ⟨10, _⟩ => ⟨S_, .i32⟩
  | .hbm, ⟨11, _⟩ => ⟨S3200000, .i32⟩
  | .hbm, ⟨12, _⟩ => ⟨S3200000, .i32⟩
  | .hbm, ⟨13, _⟩ => ⟨S3200000, .i32⟩
  | .hbm, ⟨14, _⟩ => ⟨S3200000x1, .i32⟩
  | .hbm, ⟨15, _⟩ => ⟨S3200000x3, .f32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S3200000x3, .f32⟩
  | .hbm, ⟨25, _⟩ => ⟨S3200000x3, .f32⟩
  | .hbm, ⟨26, _⟩ => ⟨S3200000x3, .f32⟩
  | .hbm, ⟨27, _⟩ => ⟨S_, .f32⟩
  | .hbm, ⟨28, _⟩ => ⟨S3200000, .f32⟩
  | .hbm, ⟨29, _⟩ => ⟨S3200000, .f32⟩
  | .hbm, ⟨30, _⟩ => ⟨S_, .f32⟩
  | .hbm, ⟨31, _⟩ => ⟨S3200000, .f32⟩
  | .hbm, ⟨32, _⟩ => ⟨S3200000, .f32⟩
  | .hbm, ⟨33, _⟩ => ⟨S3200000, .f32⟩
  | .hbm, ⟨34, _⟩ => ⟨S_, .f32⟩
  | .hbm, ⟨35, _⟩ => ⟨S3200000, .f32⟩
  | .hbm, ⟨36, _⟩ => ⟨S3200000, .f32⟩
  | .hbm, ⟨37, _⟩ => ⟨S_, .i32⟩
  | .hbm, ⟨38, _⟩ => ⟨S3200000, .i32⟩
  | .hbm, ⟨39, _⟩ => ⟨S3200000, .i1⟩
  | .hbm, ⟨40, _⟩ => ⟨S_, .i32⟩
  | .hbm, ⟨41, _⟩ => ⟨S3200000, .i32⟩
  | .hbm, ⟨42, _⟩ => ⟨S3200000, .i32⟩
  | .hbm, ⟨43, _⟩ => ⟨S3200000, .i32⟩
  | .hbm, ⟨44, _⟩ => ⟨S3200000x1, .i32⟩
  | .hbm, ⟨45, _⟩ => ⟨S3200000, .i32⟩
  | .hbm, ⟨46, _⟩ => ⟨S_, .f32⟩
  | .hbm, ⟨47, _⟩ => ⟨S64, .f32⟩
  | .hbm, ⟨48, _⟩ => ⟨S3200000x1, .i32⟩
  | .hbm, ⟨49, _⟩ => ⟨S64, .f32⟩
  | .hbm, ⟨50, _⟩ => ⟨S_, .f32⟩
  | .hbm, ⟨51, _⟩ => ⟨S3200000, .f32⟩
  | .hbm, ⟨52, _⟩ => ⟨S3200000, .f32⟩
  | .hbm, ⟨53, _⟩ => ⟨S3200000x1, .f32⟩
  | .hbm, ⟨54, _⟩ => ⟨S3200000x3, .f32⟩
  | .hbm, ⟨55, _⟩ => ⟨S3200000x3, .f32⟩
  | .hbm, ⟨56, _⟩ => ⟨S_, .f32⟩
  | .hbm, ⟨57, _⟩ => ⟨S3200000, .f32⟩
  | .hbm, ⟨58, _⟩ => ⟨S3200000, .f32⟩
  | .hbm, ⟨59, _⟩ => ⟨S3200000x1, .f32⟩
  | .hbm, ⟨60, _⟩ => ⟨S3200000x3, .f32⟩
  | .hbm, ⟨61, _⟩ => ⟨S3200000x3, .f32⟩
  | .hbm, ⟨62, _⟩ => ⟨S_, .f32⟩
  | .hbm, ⟨63, _⟩ => ⟨S100000x3, .f32⟩
  | .hbm, ⟨64, _⟩ => ⟨S3200000x3, .f32⟩
  | .hbm, ⟨65, _⟩ => ⟨S_, .i32⟩
  | .hbm, ⟨66, _⟩ => ⟨S3200000, .i32⟩
  | .hbm, ⟨67, _⟩ => ⟨S3200000, .i1⟩
  | .hbm, ⟨68, _⟩ => ⟨S_, .i32⟩
  | .hbm, ⟨69, _⟩ => ⟨S3200000, .i32⟩
  | .hbm, ⟨70, _⟩ => ⟨S3200000, .i32⟩
  | .hbm, ⟨71, _⟩ => ⟨S3200000, .i32⟩
  | .hbm, ⟨72, _⟩ => ⟨S3200000x1, .i32⟩
  | .hbm, ⟨73, _⟩ => ⟨S100000x3, .f32⟩
  | .hbm, ⟨74, _⟩ => ⟨S_, .i32⟩
  | .hbm, ⟨75, _⟩ => ⟨S3200000, .i32⟩
  | .hbm, ⟨76, _⟩ => ⟨S3200000, .i1⟩
  | .hbm, ⟨77, _⟩ => ⟨S_, .i32⟩
  | .hbm, ⟨78, _⟩ => ⟨S3200000, .i32⟩
  | .hbm, ⟨79, _⟩ => ⟨S3200000, .i32⟩
  | .hbm, ⟨80, _⟩ => ⟨S3200000, .i32⟩
  | .hbm, ⟨81, _⟩ => ⟨S3200000x1, .i32⟩
  | .hbm, ⟨82, _⟩ => ⟨S100000x3, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_c_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_12 : Ref sig .tc := ⟨.hbm, 74, rfl⟩
abbrev main_v54 : Ref sig .tc := ⟨.hbm, 75, rfl⟩
abbrev main_v55 : Ref sig .tc := ⟨.hbm, 76, rfl⟩
abbrev main_c_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x3_S3200000_d1 : S3200000x3.ReducesTo [1] S3200000
  h_S_ : 0 < S_.numel
  bcast_S_S64 : S_.BroadcastsInDim S64 (![] : Fin 0 → Fin S64.rank)
  bcast_S3200000x1_S3200000x3_0_1 : S3200000x1.BroadcastsInDim S3200000x3 (![0, 1] : Fin 2 → Fin S3200000x3.rank)
  bcast_S_S100000x3 : S_.BroadcastsInDim S100000x3 (![] : Fin 0 → Fin S100000x3.rank)
  gather_S100000x3_S3200000x1_S3200000x3_1_0_n_n_0_1_13_wf : GatherDims.WF S100000x3 S3200000x1 S3200000x3 [1] [0] [] [0] [] 1 ![1, 3]
  gather_S100000_S3200000x1_S3200000_n_0_n_n_0_1_1_wf : GatherDims.WF S100000 S3200000x1 S3200000 [] [0] [] [0] [] 1 ![1]
  scatter_S64_S3200000x1_S3200000_n_0_0_1_wf : ScatterDims.WF S64 S3200000x1 S3200000 [] [0] [0] 1
  scatter_S100000x3_S3200000x1_S3200000x3_1_0_0_1_wf : ScatterDims.WF S100000x3 S3200000x1 S3200000x3 [1] [0] [0] 1

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def scatter_S64_S3200000x1_S3200000_n_0_0_1 : ScatterDims S64 S3200000x1 S3200000 where
  updateWindowDims := []
  insertedWindowDims := [0]
  scatterDimsToOperandDims := [0]
  indexVectorDim := 1
  wf := scatter_S64_S3200000x1_S3200000_n_0_0_1_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf

class Facts : Prop extends Facts₀ where

variable [Facts]
-- ==== Proof.KernelRegion.lean ====
/-
  The program's one pipelined region, run to the end of @main, at any float instance.

  The region walks a grid of five points over [25000, 128] arrays cut into [5000, 128] row blocks. At each point the
  body loads the blocks of the three coordinate-difference arrays (dx, dy, dz) and stores four whole blocks: the edge
  energy and the three force components, each a pointwise function of the three loaded blocks. The body keeps
  nothing between points and touches nothing else, so the proof data are exact: an input's staging buffer holds its
  block of the array, an output's buffer ends at the payload of the three input blocks. Around the region @main is a
  stretch of host operations before it and one after it; neither writes an argument array, and the later stretch
  writes no array of the pipeline. From this: every weakly fair execution of @main terminates without fault, the
  pipeline's arrays end at what the proof data compute, every other buffer at what the later host operations leave,
  and the three arguments end unchanged.
-/
import proofs.«179922_j6313601925565_1_alg».proof.Proof.Gen.Kernel.Launch
import proofs.«179922_j6313601925565_1_alg».proof.Proof.Gen.Kernel.Skeleton
import proofs.«179922_j6313601925565_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents on core `c` when the region is entered: the launch contents after the host operations before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem main_around (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later host operations touch unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes its own result buffer only, and none of those is one of the pipeline's seven arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> exact fun h => StableHlo.devRef_ne_of_ne (by decide) (Finset.mem_singleton.mp h)

/-- Nothing before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- Nothing after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nothing before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- Nothing after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nothing before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- Nothing after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block of the array at every grid point. -/
theorem heldBlock0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block of the array at every grid point. -/
theorem heldBlock1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block of the array at every grid point. -/
theorem heldBlock2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From the run's post to the arguments unchanged -/

/-- A run that ends with every buffer outside the pipeline at what the later host operations leave ends with the three
    argument arrays as launched: no window stages an argument, and no host operation writes one. -/
theorem args_kept_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## What the body leaves in each output buffer -/

/-- The body's every load and store is of the whole [5000, 128] block. -/
abbrev wholeBlock : Rect S5000x128 := Rect.unit (s := S5000x128) ![0, 0] S5000x128.size inb_S5000x128_S5000x128_0_0

/-- What the body leaves in output window 3's buffer: its one whole-block store, of the payload over the three loaded blocks. -/
def energyBlock (dx dy dz : Vec F S5000x128 .f32) : Vec F S5000x128 .f32 :=
  View.canon [⟨wholeBlock, k0_pay6 (View.ld dx wholeBlock) (View.ld dy wholeBlock) (View.ld dz wholeBlock)⟩]

/-- What the body leaves in output window 4's buffer: its one whole-block store, of the payload over the three loaded blocks. -/
def forceXBlock (dx dy dz : Vec F S5000x128 .f32) : Vec F S5000x128 .f32 :=
  View.canon [⟨wholeBlock, k0_pay8 (View.ld dx wholeBlock) (View.ld dy wholeBlock) (View.ld dz wholeBlock)⟩]

/-- What the body leaves in output window 5's buffer: its one whole-block store, of the payload over the three loaded blocks. -/
def forceYBlock (dx dy dz : Vec F S5000x128 .f32) : Vec F S5000x128 .f32 :=
  View.canon [⟨wholeBlock, k0_pay9 (View.ld dx wholeBlock) (View.ld dy wholeBlock) (View.ld dz wholeBlock)⟩]

/-- What the body leaves in output window 6's buffer: its one whole-block store, of the payload over the three loaded blocks. -/
def forceZBlock (dx dy dz : Vec F S5000x128 .f32) : Vec F S5000x128 .f32 :=
  View.canon [⟨wholeBlock, k0_pay10 (View.ld dx wholeBlock) (View.ld dy wholeBlock) (View.ld dz wholeBlock)⟩]

/-- One whole-block store covers the block. -/
theorem whole_covers (p0 : Vec F S5000x128 .f32) (y : S5000x128.Idx) :
    ∃ pc ∈ ([⟨wholeBlock, p0⟩] : List (View.Piece (Elt F) S5000x128 .f32)), y ∈ pc.1.set :=
  View.cover_of_tiled [⟨wholeBlock, p0⟩] S5000x128.size (by rfl) y

/-! ## The body's triple -/

set_option maxHeartbeats 4000000 in
/-- The body on whole staging buffers — the inputs' at contents dx, dy, dz, the outputs' at anything — returns with the
    inputs' unchanged and each output's at its block function of dx, dy, dz. -/
theorem body_triple (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (arg5 : Memref sig .tc .vmem S5000x128 .f32) (harg5 : arg5.IsWhole) (arg6 : Memref sig .tc .vmem S5000x128 .f32) (harg6 : arg6.IsWhole)
    (arg7 : Memref sig .tc .vmem S5000x128 .f32) (harg7 : arg7.IsWhole)
    (dx dy dz : Vec F S5000x128 .f32) (K : PUnit → sProp 𝕄) :
    iprop(owns (c : Thread nD τ) arg1 fullShare dx ∗ owns (c : Thread nD τ) arg2 fullShare dy ∗ owns (c : Thread nD τ) arg3 fullShare dz
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare dx ∗ owns (c : Thread nD τ) arg2 fullShare dy ∗ owns (c : Thread nD τ) arg3 fullShare dz
            ∗ owns (c : Thread nD τ) arg4 fullShare (energyBlock dx dy dz) ∗ owns (c : Thread nD τ) arg5 fullShare (forceXBlock dx dy dz)
            ∗ owns (c : Thread nD τ) arg6 fullShare (forceYBlock dx dy dz) ∗ owns (c : Thread nD τ) arg7 fullShare (forceZBlock dx dy dz)) -∗ K ⟨⟩))
      ⊢ wp frame (wpE (defs₀ (F := F)) Variants.none c none) E (cc0__harmonic_kernel i arg1 harg1 arg2 harg2 arg3 harg3 arg4 harg4 arg5 harg5 arg6 harg6 arg7 harg7) K := by
  simp only [cc0__harmonic_kernel_eq_skeleton]; unfold cc0__harmonic_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (whole_covers _)
  isplitl [H4]
  · iexists _; isplitr
    swap; · iexact H4
    ipureintro
    exact View.read_writes_eq_canon _ _ _ (whole_covers _)
  isplitl [H5]
  · iexists _; isplitr
    swap; · iexact H5
    ipureintro
    exact View.read_writes_eq_canon _ _ _ (whole_covers _)
  iexists _; isplitr
  swap; · iexact H6
  ipureintro
  exact View.read_writes_eq_canon _ _ _ (whole_covers _)

/-! ## The pipeline's proof data -/

/-- On core `c`: the arrays as the region finds them; after the body at point `t` each input's buffer at its block and
    each output's at its block function of the three input blocks; the scoped rest untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => energyBlock (iblk m c 0 t) (iblk m c 1 t) (iblk m c 2 t)
    | ⟨4, _⟩ => forceXBlock (iblk m c 0 t) (iblk m c 1 t) (iblk m c 2 t)
    | ⟨5, _⟩ => forceYBlock (iblk m c 0 t) (iblk m c 1 t) (iblk m c 2 t)
    | ⟨6, _⟩ => forceZBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = energyBlock (iblk m c 0 t) (iblk m c 1 t) (iblk m c 2 t) := by dsimp only [dats]
theorem after_4 (c : Dev nD) (t : Fin cfg0.N) : (dats m 0 c).after 4 t = forceXBlock (iblk m c 0 t) (iblk m c 1 t) (iblk m c 2 t) := by dsimp only [dats]
theorem after_5 (c : Dev nD) (t : Fin cfg0.N) : (dats m 0 c).after 5 t = forceYBlock (iblk m c 0 t) (iblk m c 1 t) (iblk m c 2 t) := by dsimp only [dats]
theorem after_6 (c : Dev nD) (t : Fin cfg0.N) : (dats m 0 c).after 6 t = forceZBlock (iblk m c 0 t) (iblk m c 1 t) (iblk m c 2 t) := by dsimp only [dats]

theorem before_0 (c : Dev nD) (t : Fin cfg0.N) (d) : (dats m 0 c).before 0 t d = iblk m c 0 t :=
  heldBlock0_of m (dats m 0 c) (A_eq m c 0) (after_0 m c) t d
theorem before_1 (c : Dev nD) (t : Fin cfg0.N) (d) : (dats m 0 c).before 1 t d = iblk m c 1 t :=
  heldBlock1_of m (dats m 0 c) (A_eq m c 1) (after_1 m c) t d
theorem before_2 (c : Dev nD) (t : Fin cfg0.N) (d) : (dats m 0 c).before 2 t d = iblk m c 2 t :=
  heldBlock2_of m (dats m 0 c) (A_eq m c 2) (after_2 m c) t d

/-! ## The body obligation at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's dues pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of @main terminates without fault; the pipeline's arrays end at what the proof data compute
    and every other unscoped buffer at what the later host operations leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := main_around m Variants.none) (hA := A_eq m) (hΦ := fun _ _ => rfl)

/-- The frame: @main runs to its end and the three argument arrays end as launched. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  args_kept_of m ρ (dats m) (run_main m ρ)

end Cert.Kernel.Region

end
-- ==== Proof.KernelIdealRegion.lean ====
/-
  The program's one pipelined region, run to the end of @main, at any float instance.

  The region walks a grid of five points over [25000, 128] arrays cut into [5000, 128] row blocks. At each point the
  body loads the blocks of the three coordinate-difference arrays (dx, dy, dz) and stores four whole blocks: the edge
  energy and the three force components, each a pointwise function of the three loaded blocks. The body keeps
  nothing between points and touches nothing else, so the proof data are exact: an input's staging buffer holds its
  block of the array, an output's buffer ends at the payload of the three input blocks. Around the region @main is a
  stretch of host operations before it and one after it; neither writes an argument array, and the later stretch
  writes no array of the pipeline. From this: every weakly fair execution of @main terminates without fault, the
  pipeline's arrays end at what the proof data compute, every other buffer at what the later host operations leave,
  and the three arguments end unchanged.
-/
import proofs.«179922_j6313601925565_1_alg».proof.Proof.Gen.KernelIdeal.Launch
import proofs.«179922_j6313601925565_1_alg».proof.Proof.Gen.KernelIdeal.Skeleton
import proofs.«179922_j6313601925565_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents on core `c` when the region is entered: the launch contents after the host operations before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem main_around (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later host operations touch unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes its own result buffer only, and none of those is one of the pipeline's seven arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> exact fun h => StableHlo.devRef_ne_of_ne (by decide) (Finset.mem_singleton.mp h)

/-- Nothing before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- Nothing after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nothing before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- Nothing after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nothing before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- Nothing after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block of the array at every grid point. -/
theorem heldBlock0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block of the array at every grid point. -/
theorem heldBlock1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block of the array at every grid point. -/
theorem heldBlock2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From the run's post to the arguments unchanged -/

/-- A run that ends with every buffer outside the pipeline at what the later host operations leave ends with the three
    argument arrays as launched: no window stages an argument, and no host operation writes one. -/
theorem args_kept_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## What the body leaves in each output buffer -/

/-- The body's every load and store is of the whole [5000, 128] block. -/
abbrev wholeBlock : Rect S5000x128 := Rect.unit (s := S5000x128) ![0, 0] S5000x128.size inb_S5000x128_S5000x128_0_0

/-- What the body leaves in output window 3's buffer: its one whole-block store, of the payload over the three loaded blocks. -/
def energyBlock (dx dy dz : Vec F S5000x128 .f32) : Vec F S5000x128 .f32 :=
  View.canon [⟨wholeBlock, k0_pay6 (View.ld dx wholeBlock) (View.ld dy wholeBlock) (View.ld dz wholeBlock)⟩]

/-- What the body leaves in output window 4's buffer: its one whole-block store, of the payload over the three loaded blocks. -/
def forceXBlock (dx dy dz : Vec F S5000x128 .f32) : Vec F S5000x128 .f32 :=
  View.canon [⟨wholeBlock, k0_pay8 (View.ld dx wholeBlock) (View.ld dy wholeBlock) (View.ld dz wholeBlock)⟩]

/-- What the body leaves in output window 5's buffer: its one whole-block store, of the payload over the three loaded blocks. -/
def forceYBlock (dx dy dz : Vec F S5000x128 .f32) : Vec F S5000x128 .f32 :=
  View.canon [⟨wholeBlock, k0_pay9 (View.ld dx wholeBlock) (View.ld dy wholeBlock) (View.ld dz wholeBlock)⟩]

/-- What the body leaves in output window 6's buffer: its one whole-block store, of the payload over the three loaded blocks. -/
def forceZBlock (dx dy dz : Vec F S5000x128 .f32) : Vec F S5000x128 .f32 :=
  View.canon [⟨wholeBlock, k0_pay10 (View.ld dx wholeBlock) (View.ld dy wholeBlock) (View.ld dz wholeBlock)⟩]

/-- One whole-block store covers the block. -/
theorem whole_covers (p0 : Vec F S5000x128 .f32) (y : S5000x128.Idx) :
    ∃ pc ∈ ([⟨wholeBlock, p0⟩] : List (View.Piece (Elt F) S5000x128 .f32)), y ∈ pc.1.set :=
  View.cover_of_tiled [⟨wholeBlock, p0⟩] S5000x128.size (by rfl) y

/-! ## The body's triple -/

set_option maxHeartbeats 4000000 in
/-- The body on whole staging buffers — the inputs' at contents dx, dy, dz, the outputs' at anything — returns with the
    inputs' unchanged and each output's at its block function of dx, dy, dz. -/
theorem body_triple (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (arg5 : Memref sig .tc .vmem S5000x128 .f32) (harg5 : arg5.IsWhole) (arg6 : Memref sig .tc .vmem S5000x128 .f32) (harg6 : arg6.IsWhole)
    (arg7 : Memref sig .tc .vmem S5000x128 .f32) (harg7 : arg7.IsWhole)
    (dx dy dz : Vec F S5000x128 .f32) (K : PUnit → sProp 𝕄) :
    iprop(owns (c : Thread nD τ) arg1 fullShare dx ∗ owns (c : Thread nD τ) arg2 fullShare dy ∗ owns (c : Thread nD τ) arg3 fullShare dz
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare dx ∗ owns (c : Thread nD τ) arg2 fullShare dy ∗ owns (c : Thread nD τ) arg3 fullShare dz
            ∗ owns (c : Thread nD τ) arg4 fullShare (energyBlock dx dy dz) ∗ owns (c : Thread nD τ) arg5 fullShare (forceXBlock dx dy dz)
            ∗ owns (c : Thread nD τ) arg6 fullShare (forceYBlock dx dy dz) ∗ owns (c : Thread nD τ) arg7 fullShare (forceZBlock dx dy dz)) -∗ K ⟨⟩))
      ⊢ wp frame (wpE (defs₀ (F := F)) Variants.none c none) E (cc0__harmonic_kernel i arg1 harg1 arg2 harg2 arg3 harg3 arg4 harg4 arg5 harg5 arg6 harg6 arg7 harg7) K := by
  simp only [cc0__harmonic_kernel_eq_skeleton]; unfold cc0__harmonic_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (whole_covers _)
  isplitl [H4]
  · iexists _; isplitr
    swap; · iexact H4
    ipureintro
    exact View.read_writes_eq_canon _ _ _ (whole_covers _)
  isplitl [H5]
  · iexists _; isplitr
    swap; · iexact H5
    ipureintro
    exact View.read_writes_eq_canon _ _ _ (whole_covers _)
  iexists _; isplitr
  swap; · iexact H6
  ipureintro
  exact View.read_writes_eq_canon _ _ _ (whole_covers _)

/-! ## The pipeline's proof data -/

/-- On core `c`: the arrays as the region finds them; after the body at point `t` each input's buffer at its block and
    each output's at its block function of the three input blocks; the scoped rest untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => energyBlock (iblk m c 0 t) (iblk m c 1 t) (iblk m c 2 t)
    | ⟨4, _⟩ => forceXBlock (iblk m c 0 t) (iblk m c 1 t) (iblk m c 2 t)
    | ⟨5, _⟩ => forceYBlock (iblk m c 0 t) (iblk m c 1 t) (iblk m c 2 t)
    | ⟨6, _⟩ => forceZBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = energyBlock (iblk m c 0 t) (iblk m c 1 t) (iblk m c 2 t) := by dsimp only [dats]
theorem after_4 (c : Dev nD) (t : Fin cfg0.N) : (dats m 0 c).after 4 t = forceXBlock (iblk m c 0 t) (iblk m c 1 t) (iblk m c 2 t) := by dsimp only [dats]
theorem after_5 (c : Dev nD) (t : Fin cfg0.N) : (dats m 0 c).after 5 t = forceYBlock (iblk m c 0 t) (iblk m c 1 t) (iblk m c 2 t) := by dsimp only [dats]
theorem after_6 (c : Dev nD) (t : Fin cfg0.N) : (dats m 0 c).after 6 t = forceZBlock (iblk m c 0 t) (iblk m c 1 t) (iblk m c 2 t) := by dsimp only [dats]

theorem before_0 (c : Dev nD) (t : Fin cfg0.N) (d) : (dats m 0 c).before 0 t d = iblk m c 0 t :=
  heldBlock0_of m (dats m 0 c) (A_eq m c 0) (after_0 m c) t d
theorem before_1 (c : Dev nD) (t : Fin cfg0.N) (d) : (dats m 0 c).before 1 t d = iblk m c 1 t :=
  heldBlock1_of m (dats m 0 c) (A_eq m c 1) (after_1 m c) t d
theorem before_2 (c : Dev nD) (t : Fin cfg0.N) (d) : (dats m 0 c).before 2 t d = iblk m c 2 t :=
  heldBlock2_of m (dats m 0 c) (A_eq m c 2) (after_2 m c) t d

/-! ## The body obligation at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's dues pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of @main terminates without fault; the pipeline's arrays end at what the proof data compute
    and every other unscoped buffer at what the later host operations leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := main_around m Variants.none) (hA := A_eq m) (hΦ := fun _ _ => rfl)

/-- The frame: @main runs to its end and the three argument arrays end as launched. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  args_kept_of m ρ (dats m) (run_main m ρ)

end Cert.KernelIdeal.Region

end
-- ==== Proof.HarmonicSpec.lean ====
/-
  The mathematics of the harmonic lattice potential, over the program's literal shapes and free of either program.

  A lattice has 100000 nodes with positions in three coordinates and 3200000 directed edges (i, j), the index rows read
  with a negative index wrapped once by the node count. For an edge with coordinate differences (x, y, z) of its two end
  positions, its length is d = sqrt(x² + y² + z²), its stretch δ = d − 1, its energy ½·δ·δ and its force along a
  coordinate w the stretch times w over (d + ε). One program computes the differences coordinate by coordinate from
  the position table's columns, lays the edges out as a [25000, 128] slab, evaluates energy and the three force components
  pointwise with the reciprocal 1/(d + ε) formed first, and stacks the three components; the other gathers whole
  position rows, sums the squares along the row, and divides each difference by (d + ε). Both then sum the edge
  energies into 64 graph bins and scatter the forces onto the nodes with the same host operations.
  Here both arrangements are written as functions of the argument arrays.
-/
import Idealize.ShloMosaic.PureOps
import Idealize.ShloMosaic.PureOps.Ideal

noncomputable section

namespace Cert.Harmonic

open Idealize.ShloMosaic

/-! ## Shapes -/

/-- The position table: one row of three coordinates per node. -/
abbrev Pos : Shape := ⟨2, ![100000, 3]⟩
/-- The edge list: a row of source nodes and a row of target nodes. -/
abbrev EdgePair : Shape := ⟨2, ![2, 3200000]⟩
abbrev EdgeRow : Shape := ⟨2, ![1, 3200000]⟩
/-- One entry per edge. -/
abbrev Edges : Shape := ⟨1, ![3200000]⟩
abbrev EdgeCol : Shape := ⟨2, ![3200000, 1]⟩
/-- Three entries per edge. -/
abbrev Edges3 : Shape := ⟨2, ![3200000, 3]⟩
/-- The edges laid out as rows of 128 lanes. -/
abbrev Slab : Shape := ⟨2, ![25000, 128]⟩
/-- One entry per node. -/
abbrev Nodes : Shape := ⟨1, ![100000]⟩
abbrev NodeCol : Shape := ⟨2, ![100000, 1]⟩
abbrev Scalar0 : Shape := ⟨0, ![]⟩
/-- One entry per graph of the batch. -/
abbrev Graphs : Shape := ⟨1, ![64]⟩

/-! ## Dimension numbers of the gathers and scatters -/

/-- Reading a per-node array at a column of node indices. -/
def take1 : GatherDims Nodes EdgeCol Edges where
  offsetDims := []
  collapsedSliceDims := [0]
  operandBatchingDims := []
  startIndicesBatchingDims := []
  startIndexMap := [0]
  indexVectorDim := 1
  sliceSizes := ![1]
  wf := by decide

/-- Reading whole position rows at a column of node indices. -/
def takeRows : GatherDims Pos EdgeCol Edges3 where
  offsetDims := [1]
  collapsedSliceDims := [0]
  operandBatchingDims := []
  startIndicesBatchingDims := []
  startIndexMap := [0]
  indexVectorDim := 1
  sliceSizes := ![1, 3]
  wf := by decide

/-- Summing per-edge scalars into the graph bins. -/
def intoGraphs : ScatterDims Graphs EdgeCol Edges where
  updateWindowDims := []
  insertedWindowDims := [0]
  scatterDimsToOperandDims := [0]
  indexVectorDim := 1
  wf := by decide

/-- Summing per-edge rows of three onto the nodes. -/
def ontoNodes : ScatterDims Pos EdgeCol Edges3 where
  updateWindowDims := [1]
  insertedWindowDims := [0]
  scatterDimsToOperandDims := [0]
  indexVectorDim := 1
  wf := by decide

/-- Three one-entry columns side by side make a row of three. -/
theorem threeCols : Shape.Concatenates [EdgeCol, EdgeCol, EdgeCol] Edges3 1 := by decide
/-- Summing a row of three leaves one entry per edge. -/
theorem alongRow : Edges3.ReducesTo [1] Edges := by decide

variable {F : FTy → Type} [FloatOps F]

/-! ## What both programs share: the index rows, wrapped -/

/-- The edges' source nodes. -/
def srcRow (e : IVec EdgePair 32) : IVec Edges 32 :=
  shapeCast Edges (extractStridedSlice EdgeRow ![0, 0] e (by decide)) (by decide)
/-- The edges' target nodes. -/
def dstRow (e : IVec EdgePair 32) : IVec Edges 32 :=
  shapeCast Edges (extractStridedSlice EdgeRow ![1, 0] e (by decide)) (by decide)

/-- An index row as a column of start indices, a negative index moved up by the node count. -/
def wrap (r : IVec Edges 32) : IVec EdgeCol 32 :=
  broadcastInDim EdgeCol ![0] (by decide)
    (select (cmpi .slt r (broadcastInDim Edges ![] (by decide) (constantI Scalar0 32 0#32)))
      (addi r (broadcastInDim Edges ![] (by decide) (constantI Scalar0 32 100000#32))) r)

/-! ## One edge, as scalars -/

/-- The length of a difference vector. -/
def lenS (x y z : F .f32) : F .f32 :=
  FloatOps.sqrt (FloatOps.addf (FloatOps.addf (FloatOps.mulf x x) (FloatOps.mulf y y)) (FloatOps.mulf z z))
/-- Its stretch beyond the rest length 1. -/
def stretchS (x y z : F .f32) : F .f32 := FloatOps.subf (lenS x y z) (Scalar.ofBits .f32 0x3F800000#32)
/-- The energy ½·δ·δ, the half multiplied in first. -/
def energyS (x y z : F .f32) : F .f32 :=
  FloatOps.mulf (FloatOps.mulf (Scalar.ofBits .f32 0x3F000000#32) (stretchS x y z)) (stretchS x y z)
/-- The stretch over the guarded length, as a product with the reciprocal 1/(d + ε). -/
def pullS (x y z : F .f32) : F .f32 :=
  FloatOps.mulf (FloatOps.mulf (Scalar.ofBits .f32 0x3F800000#32) (stretchS x y z))
    (FloatOps.divf (Scalar.ofBits .f32 0x3F800000#32) (FloatOps.addf (lenS x y z) (Scalar.ofBits .f32 0x1E3CE508#32)))

/-- Energy of every edge of a layout, from the three difference arrays. -/
def energyArr {s : Shape} (X Y Z : FVec F s .f32) : FVec F s .f32 := fun i => energyS (X i) (Y i) (Z i)
/-- Force of every edge of a layout along the coordinate whose differences are `W`. -/
def forceArr {s : Shape} (X Y Z W : FVec F s .f32) : FVec F s .f32 := fun i => FloatOps.mulf (pullS (X i) (Y i) (Z i)) (W i)

/-! ## The coordinate-by-coordinate arrangement -/

/-- Column `k` of the position table as a per-node array. -/
def coordX (p : FVec F Pos .f32) : FVec F Nodes .f32 :=
  shapeCast Nodes (extractStridedSlice NodeCol ![0, 0] p (by decide)) (by decide)
def coordY (p : FVec F Pos .f32) : FVec F Nodes .f32 :=
  shapeCast Nodes (extractStridedSlice NodeCol ![0, 1] p (by decide)) (by decide)
def coordZ (p : FVec F Pos .f32) : FVec F Nodes .f32 :=
  shapeCast Nodes (extractStridedSlice NodeCol ![0, 2] p (by decide)) (by decide)

/-- Source coordinate minus target coordinate, per edge, laid out as the slab. -/
def gapSlab (col : FVec F Nodes .f32) (e : IVec EdgePair 32) : FVec F Slab .f32 :=
  shapeCast Slab (subf (Host.gather take1 col (wrap (srcRow e))) (Host.gather take1 col (wrap (dstRow e)))) (by decide)

/-- The edge energies, computed on the slab and flattened. -/
def slabEdgeEnergy (p : FVec F Pos .f32) (e : IVec EdgePair 32) : FVec F Edges .f32 :=
  shapeCast Edges (energyArr (gapSlab (coordX p) e) (gapSlab (coordY p) e) (gapSlab (coordZ p) e)) (by decide)

/-- One force component, computed on the slab, flattened, as a column. -/
def forceCol (p : FVec F Pos .f32) (e : IVec EdgePair 32) (W : FVec F Slab .f32) : FVec F EdgeCol .f32 :=
  broadcastInDim EdgeCol ![0] (by decide)
    (shapeCast Edges (forceArr (gapSlab (coordX p) e) (gapSlab (coordY p) e) (gapSlab (coordZ p) e) W) (by decide))

/-- The edge forces: the three component columns side by side. -/
def slabEdgeForce (p : FVec F Pos .f32) (e : IVec EdgePair 32) : FVec F Edges3 .f32 :=
  concatenate Edges3 1 [⟨EdgeCol, forceCol p e (gapSlab (coordX p) e)⟩, ⟨EdgeCol, forceCol p e (gapSlab (coordY p) e)⟩,
    ⟨EdgeCol, forceCol p e (gapSlab (coordZ p) e)⟩] threeCols

/-! ## The row-by-row arrangement -/

/-- Source position minus target position, per edge. -/
def gapRows (p : FVec F Pos .f32) (e : IVec EdgePair 32) : FVec F Edges3 .f32 :=
  subf (Host.gather takeRows p (wrap (srcRow e))) (Host.gather takeRows p (wrap (dstRow e)))
/-- Edge lengths: the root of the row sum of squares. -/
def rowLen (p : FVec F Pos .f32) (e : IVec EdgePair 32) : FVec F Edges .f32 :=
  Host.sqrt (Host.reduceAdd (mulf (gapRows p e) (gapRows p e)) (constant Scalar0 .f32 0x00000000#32) alongRow (by decide))
def rowStretch (p : FVec F Pos .f32) (e : IVec EdgePair 32) : FVec F Edges .f32 :=
  subf (rowLen p e) (broadcastInDim Edges ![] (by decide) (constant Scalar0 .f32 0x3F800000#32))
/-- The edge energies ½·(δ·δ). -/
def rowEdgeEnergy (p : FVec F Pos .f32) (e : IVec EdgePair 32) : FVec F Edges .f32 :=
  mulf (broadcastInDim Edges ![] (by decide) (constant Scalar0 .f32 0x3F000000#32)) (mulf (rowStretch p e) (rowStretch p e))
/-- The edge forces: the stretch times the difference over the guarded length. -/
def rowEdgeForce (p : FVec F Pos .f32) (e : IVec EdgePair 32) : FVec F Edges3 .f32 :=
  mulf
    (broadcastInDim Edges3 ![0, 1] (by decide) (broadcastInDim EdgeCol ![0] (by decide)
      (mulf (broadcastInDim Edges ![] (by decide) (constant Scalar0 .f32 0x3F800000#32)) (rowStretch p e))))
    (Host.divf (gapRows p e)
      (broadcastInDim Edges3 ![0, 1] (by decide) (broadcastInDim EdgeCol ![0] (by decide)
        (addf (rowLen p e) (broadcastInDim Edges ![] (by decide) (constant Scalar0 .f32 0x1E3CE508#32))))))

/-! ## What both programs do with the edge energies and forces -/

/-- The energy of each graph: every edge's energy added into the bin of its source node's graph (`src` the source row,
    `b` each node's graph). -/
def graphEnergy (src : IVec Edges 32) (b : IVec Nodes 32) (en : FVec F Edges .f32) : FVec F Graphs .f32 :=
  Host.scatterAdd intoGraphs (broadcastInDim Graphs ![] (by decide) (constant Scalar0 .f32 0x00000000#32))
    (broadcastInDim EdgeCol ![0] (by decide) (Host.gather take1 b (wrap src))) en

/-- The force on each node: every edge's force subtracted at its source and added at its target. -/
def nodeForce (src dst : IVec Edges 32) (f : FVec F Edges3 .f32) : FVec F Pos .f32 :=
  Host.scatterAdd ontoNodes
    (Host.scatterAdd ontoNodes (broadcastInDim Pos ![] (by decide) (constant Scalar0 .f32 0x00000000#32)) (wrap src) (Host.negf f))
    (wrap dst) f

end Cert.Harmonic

end
-- ==== Proof.LibHostNary.lean ====
/-
  A host operation of three operands read back.

  A line of host operations is a fold over the buffers' contents: each operation writes its function of its operands'
  contents to its own result buffer and leaves every other buffer as it was. For an operation whose operands are a
  literal family of THREE references (a concatenation of three arrays), this file states its result with each operand's
  contents at its own reference, so that reading a buffer through a list of operations can go on into the three operands,
  and gives the reading loop with that case in it.
-/
import Idealize.ShloMosaic.Lib.StableHlo.Run

namespace Idealize.ShloMosaic.HostNary

open Idealize.ShloMosaic Idealize.ShloMosaic.StableHlo

variable {τ : Topo} {sig : RefSig} {Val : EltTy → Type}

/-- The result of a three-operand host operation at its own result buffer: its function of the three operands'
    contents, each read at its own reference (rather than at an indexed family of references). -/
theorem nary3_result {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- Reads one buffer after a literal list of host operations of up to three operands: each operation's result at its own
    buffer is its function of its operands' contents, and at any other buffer what was there, outermost first. -/
macro "after_results3" : tactic =>
  `(tactic| (simp only [after_cons, after_nil]
             repeat (first
               | rw [nullary_result] | rw [unary_result] | rw [binary_result] | rw [ternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

end Idealize.ShloMosaic.HostNary
-- ==== Proof.KernelIdealOutcome.lean ====
/-
  What the slab program computes: its two results as functions of the argument arrays.

  The region's four output slabs are whole-array pointwise functions of its three input slabs: at every grid point
  the input blocks and the output block are the same 5000 rows of their slabs, the body's payloads are pointwise, and the
  five blocks tile the 25000 rows. The input slabs are what the host operations before the region made of the arguments:
  per coordinate, the source node's coordinate minus the target node's, per edge, laid out as [25000, 128]. The host
  operations after the region flatten the four slabs, stack the three force components, and scatter-add energies into the
  graph bins and forces onto the nodes.
-/
import proofs.«179922_j6313601925565_1_alg».proof.Proof.KernelIdealRegion
import proofs.«179922_j6313601925565_1_alg».proof.Proof.HarmonicSpec
import proofs.«179922_j6313601925565_1_alg».proof.Proof.LibHostNary
import Idealize.ShloMosaic.Lib.Pipeline.Value
import Idealize.ShloMosaic.Lib.StableHlo.Run

set_option maxRecDepth 16384

noncomputable section

namespace Cert.KernelIdeal.Outcome

open Idealize.ShloMosaic Idealize.ShloMosaic.TcCoe
open Idealize.SL Idealize.SL.Sem
open Idealize.ShloMosaic.Pipeline (Dat Cfg Window)
open Cert.KernelIdeal Cert.KernelIdeal.Gen Cert.KernelIdeal.Region Cert.Harmonic
open Idealize.ShloMosaic.HostNary

variable {F : FTy → Type} [FloatOps F]
variable (m : (ℓ : Loc nD τ sig) → Buf (Elt F) ℓ) (ρ : Dev nD → PrngReg)

/-! ## The three input slabs as the region finds them -/

abbrev gapX (c : Dev nD) : FVec F S25000x128 .f32 := V m c main_v25
abbrev gapY (c : Dev nD) : FVec F S25000x128 .f32 := V m c main_v41
abbrev gapZ (c : Dev nD) : FVec F S25000x128 .f32 := V m c main_v57

/-! ## The payloads are the edge functions, pointwise -/

theorem pay_energy (x0 x1 x2 : Vec F S5000x128 .f32) : k0_pay6 x0 x1 x2 = energyArr x0 x1 x2 := by
  unfold k0_pay6 k0_pay5 k0_pay4 k0_pay1 k0_pay2 k0_pay3
  simp only [shapeCast_self]
  rfl
theorem pay_forceX (x0 x1 x2 : Vec F S5000x128 .f32) : k0_pay8 x0 x1 x2 = forceArr x0 x1 x2 x0 := by
  unfold k0_pay8 k0_pay7 k0_pay5 k0_pay4 k0_pay1 k0_pay2 k0_pay3
  simp only [shapeCast_self]
  rfl
theorem pay_forceY (x0 x1 x2 : Vec F S5000x128 .f32) : k0_pay9 x0 x1 x2 = forceArr x0 x1 x2 x1 := by
  unfold k0_pay9 k0_pay7 k0_pay5 k0_pay4 k0_pay1 k0_pay2 k0_pay3
  simp only [shapeCast_self]
  rfl
theorem pay_forceZ (x0 x1 x2 : Vec F S5000x128 .f32) : k0_pay10 x0 x1 x2 = forceArr x0 x1 x2 x2 := by
  unfold k0_pay10 k0_pay7 k0_pay5 k0_pay4 k0_pay1 k0_pay2 k0_pay3
  simp only [shapeCast_self]
  rfl

/-! ## The grid -/

theorem hz : (![0, 0] : Fin 2 → Nat) = fun _ => 0 := funext fun a => by fin_cases a <;> rfl

/-- Grid point `t` has, in every window, block index (t, 0): the block is rows 5000·t … 5000·t + 4999, all 128 lanes. -/
theorem rows_of_point : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The grid point with a given number below five. -/
def pointOf (r : Nat) (h : r < 5) : Fin cfg0.N := ⟨r, by show r < grid0.N; rw [N_0]; exact h⟩

/-! The entry contents of a buffer are the host operations before the region folded over the launch memory; in this
    section that fold stays closed: the four output slabs are functions of the three input slabs whatever those hold. -/
section Slabs
attribute [local irreducible] StableHlo.after

/-! ## Output window 3 -/

/-- What grid point `t` writes back to window 3's array is block `t` of the whole-slab function of the three difference
    slabs: the payload is pointwise, and the three input windows and this one cut their arrays at the same rows. -/
theorem flushedEnergy (c : Dev nD) (t : Fin cfg0.N) :
    (dats m 0 c).flushed 3 t = ((cfg0.win 3).blk t).view.read (Elt F) (energyArr (gapX m c) (gapY m c) (gapZ m c)) := by
  show (cfg0.win 3).cut (grid0.coords t) ((dats m 0 c).after 3 t) = _
  rw [after_3]
  unfold energyBlock
  rw [View.canon_unit_zero hz]
  simp only [View.ld_unit_zero (S := S5000x128) hz]
  rw [pay_energy]
  have hI := rows_of_point t
  funext j
  show energyS (gapX m c (((cfg0.win 0).blk t).view.emb j)) (gapY m c (((cfg0.win 1).blk t).view.emb j)) (gapZ m c (((cfg0.win 2).blk t).view.emb j))
    = energyS (gapX m c (((cfg0.win 3).blk t).view.emb j)) (gapY m c (((cfg0.win 3).blk t).view.emb j)) (gapZ m c (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb j = ((cfg0.win 3).blk t).view.emb j := by
    funext a; apply Fin.ext
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 128 + 1 * (j 1).val = win0_3.index t (1 : Fin 2) * 128 + 1 * (j 1).val; omega
  have h2 : ((cfg0.win 2).blk t).view.emb j = ((cfg0.win 3).blk t).view.emb j := by
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 128 + 1 * (j 1).val = win0_3.index t (1 : Fin 2) * 128 + 1 * (j 1).val; omega
  rw [h0, h1, h2]

/-- An index of the slab is in point `t`'s block iff its row is among the block's 5000 rows. -/
theorem mem_blk3 (t : Fin cfg0.N) (i : S25000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v58_0).slice (win0_3.rect t)).set ↔ _
  rw [View.set_slice_whole, Rect.mem_set_unit]
  exact Iff.rfl

/-- Every index of the slab is in the block of the point its row falls to: the five blocks tile the slab. -/
theorem covered3 (i : S25000x128.Idx) :
    ∃ t : Fin cfg0.N, (cfg0.win 3).flush t = true ∧ i ∈ ((cfg0.win 3).blk t).view.set := by
  have hi0 : (i 0).val < 25000 := (i 0).isLt
  have hi1 : (i 1).val < 128 := (i 1).isLt
  refine ⟨pointOf ((i 0).val / 5000) (by omega), flush0_3 _, ?_⟩
  rw [mem_blk3]
  have hI := rows_of_point (pointOf ((i 0).val / 5000) (by omega))
  have hv : (pointOf ((i 0).val / 5000) (by omega)).val = (i 0).val / 5000 := rfl
  intro a
  match a with
  | ⟨0, _⟩ => show win0_3.index _ (0 : Fin 2) * 5000 ≤ (i 0).val ∧ (i 0).val < win0_3.index _ (0 : Fin 2) * 5000 + 5000; omega
  | ⟨1, _⟩ => show win0_3.index _ (1 : Fin 2) * 128 ≤ (i 1).val ∧ (i 1).val < win0_3.index _ (1 : Fin 2) * 128 + 128; omega

/-- Window 3's array after the run. -/
theorem finalEnergy (c : Dev nD) : (dats m 0 c).arrAt 3 cfg0.N = energyArr (gapX m c) (gapY m c) (gapZ m c) :=
  (dats m 0 c).arrAt_eq_of_cover 3 _ (fun t _ => flushedEnergy m c t) covered3

/-! ## Output window 4 -/

/-- What grid point `t` writes back to window 4's array is block `t` of the whole-slab function of the three difference
    slabs: the payload is pointwise, and the three input windows and this one cut their arrays at the same rows. -/
theorem flushedForceX (c : Dev nD) (t : Fin cfg0.N) :
    (dats m 0 c).flushed 4 t = ((cfg0.win 4).blk t).view.read (Elt F) (forceArr (gapX m c) (gapY m c) (gapZ m c) (gapX m c)) := by
  show (cfg0.win 4).cut (grid0.coords t) ((dats m 0 c).after 4 t) = _
  rw [after_4]
  unfold forceXBlock
  rw [View.canon_unit_zero hz]
  simp only [View.ld_unit_zero (S := S5000x128) hz]
  rw [pay_forceX]
  have hI := rows_of_point t
  funext j
  show FloatOps.mulf (pullS (gapX m c (((cfg0.win 0).blk t).view.emb j)) (gapY m c (((cfg0.win 1).blk t).view.emb j)) (gapZ m c (((cfg0.win 2).blk t).view.emb j))) (gapX m c (((cfg0.win 0).blk t).view.emb j))
    = FloatOps.mulf (pullS (gapX m c (((cfg0.win 4).blk t).view.emb j)) (gapY m c (((cfg0.win 4).blk t).view.emb j)) (gapZ m c (((cfg0.win 4).blk t).view.emb j))) (gapX m c (((cfg0.win 4).blk t).view.emb j))
  have h0 : ((cfg0.win 0).blk t).view.emb j = ((cfg0.win 4).blk t).view.emb j := by
    funext a; apply Fin.ext
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 128 + 1 * (j 1).val = win0_4.index t (1 : Fin 2) * 128 + 1 * (j 1).val; omega
  have h1 : ((cfg0.win 1).blk t).view.emb j = ((cfg0.win 4).blk t).view.emb j := by
    funext a; apply Fin.ext
    match a with
    | ⟨0, _⟩ => show win0_1.index t (0 : Fin 2) * 5000 + 1 * (j 0).val = win0_4.index t (0 : Fin 2) * 5000 + 1 * (j 0).val; omega
    | ⟨1, _⟩ => show win0_1.index t (1 : Fin 2) * 128 + 1 * (j 1).val = win0_4.index t (1 : Fin 2) * 128 + 1 * (j 1).val; omega
  have h2 : ((cfg0.win 2).blk t).view.emb j = ((cfg0.win 4).blk t).view.emb j := by
    funext a; apply Fin.ext
    match a with
    | ⟨0, _⟩ => show win0_2.index t (0 : Fin 2) * 5000 + 1 * (j 0).val = win0_4.index t (0 : Fin 2) * 5000 + 1 * (j 0).val; omega
    | ⟨1, _⟩ => show win0_2.index t (1 : Fin 2) * 128 + 1 * (j 1).val = win0_4.index t (1 : Fin 2) * 128 + 1 * (j 1).val; omega
  rw [h0, h1, h2]

/-- An index of the slab is in point `t`'s block iff its row is among the block's 5000 rows. -/
theorem mem_blk4 (t : Fin cfg0.N) (i : S25000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v58_1).slice (win0_4.rect t)).set ↔ _
  rw [View.set_slice_whole, Rect.mem_set_unit]
  exact Iff.rfl

/-- Every index of the slab is in the block of the point its row falls to: the five blocks tile the slab. -/
theorem covered4 (i : S25000x128.Idx) :
    ∃ t : Fin cfg0.N, (cfg0.win 4).flush t = true ∧ i ∈ ((cfg0.win 4).blk t).view.set := by
  have hi0 : (i 0).val < 25000 := (i 0).isLt
  have hi1 : (i 1).val < 128 := (i 1).isLt
  refine ⟨pointOf ((i 0).val / 5000) (by omega), flush0_4 _, ?_⟩
  rw [mem_blk4]
  have hI := rows_of_point (pointOf ((i 0).val / 5000) (by omega))
  have hv : (pointOf ((i 0).val / 5000) (by omega)).val = (i 0).val / 5000 := rfl
  intro a
  match a with
  | ⟨0, _⟩ => show win0_4.index _ (0 : Fin 2) * 5000 ≤ (i 0).val ∧ (i 0).val < win0_4.index _ (0 : Fin 2) * 5000 + 5000; omega
  | ⟨1, _⟩ => show win0_4.index _ (1 : Fin 2) * 128 ≤ (i 1).val ∧ (i 1).val < win0_4.index _ (1 : Fin 2) * 128 + 128; omega

/-- Window 4's array after the run. -/
theorem finalForceX (c : Dev nD) : (dats m 0 c).arrAt 4 cfg0.N = forceArr (gapX m c) (gapY m c) (gapZ m c) (gapX m c) :=
  (dats m 0 c).arrAt_eq_of_cover 4 _ (fun t _ => flushedForceX m c t) covered4

/-! ## Output window 5 -/

/-- What grid point `t` writes back to window 5's array is block `t` of the whole-slab function of the three difference
    slabs: the payload is pointwise, and the three input windows and this one cut their arrays at the same rows. -/
theorem flushedForceY (c : Dev nD) (t : Fin cfg0.N) :
    (dats m 0 c).flushed 5 t = ((cfg0.win 5).blk t).view.read (Elt F) (forceArr (gapX m c) (gapY m c) (gapZ m c) (gapY m c)) := by
  show (cfg0.win 5).cut (grid0.coords t) ((dats m 0 c).after 5 t) = _
  rw [after_5]
  unfold forceYBlock
  rw [View.canon_unit_zero hz]
  simp only [View.ld_unit_zero (S := S5000x128) hz]
  rw [pay_forceY]
  have hI := rows_of_point t
  funext j
  show FloatOps.mulf (pullS (gapX m c (((cfg0.win 0).blk t).view.emb j)) (gapY m c (((cfg0.win 1).blk t).view.emb j)) (gapZ m c (((cfg0.win 2).blk t).view.emb j))) (gapY m c (((cfg0.win 1).blk t).view.emb j))
    = FloatOps.mulf (pullS (gapX m c (((cfg0.win 5).blk t).view.emb j)) (gapY m c (((cfg0.win 5).blk t).view.emb j)) (gapZ m c (((cfg0.win 5).blk t).view.emb j))) (gapY m c (((cfg0.win 5).blk t).view.emb j))
  have h0 : ((cfg0.win 0).blk t).view.emb j = ((cfg0.win 5).blk t).view.emb j := by
    funext a; apply Fin.ext
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * (j 1).val = win0_5.index t (1 : Fin 2) * 128 + 1 * (j 1).val; omega
  have h1 : ((cfg0.win 1).blk t).view.emb j = ((cfg0.win 5).blk t).view.emb j := by
    funext a; apply Fin.ext
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * (j 1).val = win0_5.index t (1 : Fin 2) * 128 + 1 * (j 1).val; omega
  have h2 : ((cfg0.win 2).blk t).view.emb j = ((cfg0.win 5).blk t).view.emb j := by
    funext a; apply Fin.ext
    match a with
    | ⟨0, _⟩ => show win0_2.index t (0 : Fin 2) * 5000 + 1 * (j 0).val = win0_5.index t (0 : Fin 2) * 5000 + 1 * (j 0).val; omega
    | ⟨1, _⟩ => show win0_2.index t (1 : Fin 2) * 128 + 1 * (j 1).val = win0_5.index t (1 : Fin 2) * 128 + 1 * (j 1).val; omega
  rw [h0, h1, h2]

/-- An index of the slab is in point `t`'s block iff its row is among the block's 5000 rows. -/
theorem mem_blk5 (t : Fin cfg0.N) (i : S25000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v58_2).slice (win0_5.rect t)).set ↔ _
  rw [View.set_slice_whole, Rect.mem_set_unit]
  exact Iff.rfl

/-- Every index of the slab is in the block of the point its row falls to: the five blocks tile the slab. -/
theorem covered5 (i : S25000x128.Idx) :
    ∃ t : Fin cfg0.N, (cfg0.win 5).flush t = true ∧ i ∈ ((cfg0.win 5).blk t).view.set := by
  have hi0 : (i 0).val < 25000 := (i 0).isLt
  have hi1 : (i 1).val < 128 := (i 1).isLt
  refine ⟨pointOf ((i 0).val / 5000) (by omega), flush0_5 _, ?_⟩
  rw [mem_blk5]
  have hI := rows_of_point (pointOf ((i 0).val / 5000) (by omega))
  have hv : (pointOf ((i 0).val / 5000) (by omega)).val = (i 0).val / 5000 := rfl
  intro a
  match a with
  | ⟨0, _⟩ => show win0_5.index _ (0 : Fin 2) * 5000 ≤ (i 0).val ∧ (i 0).val < win0_5.index _ (0 : Fin 2) * 5000 + 5000; omega
  | ⟨1, _⟩ => show win0_5.index _ (1 : Fin 2) * 128 ≤ (i 1).val ∧ (i 1).val < win0_5.index _ (1 : Fin 2) * 128 + 128; omega

/-- Window 5's array after the run. -/
theorem finalForceY (c : Dev nD) : (dats m 0 c).arrAt 5 cfg0.N = forceArr (gapX m c) (gapY m c) (gapZ m c) (gapY m c) :=
  (dats m 0 c).arrAt_eq_of_cover 5 _ (fun t _ => flushedForceY m c t) covered5

/-! ## Output window 6 -/

/-- What grid point `t` writes back to window 6's array is block `t` of the whole-slab function of the three difference
    slabs: the payload is pointwise, and the three input windows and this one cut their arrays at the same rows. -/
theorem flushedForceZ (c : Dev nD) (t : Fin cfg0.N) :
    (dats m 0 c).flushed 6 t = ((cfg0.win 6).blk t).view.read (Elt F) (forceArr (gapX m c) (gapY m c) (gapZ m c) (gapZ m c)) := by
  show (cfg0.win 6).cut (grid0.coords t) ((dats m 0 c).after 6 t) = _
  rw [after_6]
  unfold forceZBlock
  rw [View.canon_unit_zero hz]
  simp only [View.ld_unit_zero (S := S5000x128) hz]
  rw [pay_forceZ]
  have hI := rows_of_point t
  funext j
  show FloatOps.mulf (pullS (gapX m c (((cfg0.win 0).blk t).view.emb j)) (gapY m c (((cfg0.win 1).blk t).view.emb j)) (gapZ m c (((cfg0.win 2).blk t).view.emb j))) (gapZ m c (((cfg0.win 2).blk t).view.emb j))
    = FloatOps.mulf (pullS (gapX m c (((cfg0.win 6).blk t).view.emb j)) (gapY m c (((cfg0.win 6).blk t).view.emb j)) (gapZ m c (((cfg0.win 6).blk t).view.emb j))) (gapZ m c (((cfg0.win 6).blk t).view.emb j))
  have h0 : ((cfg0.win 0).blk t).view.emb j = ((cfg0.win 6).blk t).view.emb j := by
    funext a; apply Fin.ext
    match a with
    | ⟨0, _⟩ => show win0_0.index t (0 : Fin 2) * 5000 + 1 * (j 0).val = win0_6.index t (0 : Fin 2) * 5000 + 1 * (j 0).val; omega
    | ⟨1, _⟩ => show win0_0.index t (1 : Fin 2) * 128 + 1 * (j 1).val = win0_6.index t (1 : Fin 2) * 128 + 1 * (j 1).val; omega
  have h1 : ((cfg0.win 1).blk t).view.emb j = ((cfg0.win 6).blk t).view.emb j := by
    funext a; apply Fin.ext
    match a with
    | ⟨0, _⟩ => show win0_1.index t (0 : Fin 2) * 5000 + 1 * (j 0).val = win0_6.index t (0 : Fin 2) * 5000 + 1 * (j 0).val; omega
    | ⟨1, _⟩ => show win0_1.index t (1 : Fin 2) * 128 + 1 * (j 1).val = win0_6.index t (1 : Fin 2) * 128 + 1 * (j 1).val; omega
  have h2 : ((cfg0.win 2).blk t).view.emb j = ((cfg0.win 6).blk t).view.emb j := by
    funext a; apply Fin.ext
    match a with
    | ⟨0, _⟩ => show win0_2.index t (0 : Fin 2) * 5000 + 1 * (j 0).val = win0_6.index t (0 : Fin 2) * 5000 + 1 * (j 0).val; omega
    | ⟨1, _⟩ => show win0_2.index t (1 : Fin 2) * 128 + 1 * (j 1).val = win0_6.index t (1 : Fin 2) * 128 + 1 * (j 1).val; omega
  rw [h0, h1, h2]

/-- An index of the slab is in point `t`'s block iff its row is among the block's 5000 rows. -/
theorem mem_blk6 (t : Fin cfg0.N) (i : S25000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v58_3).slice (win0_6.rect t)).set ↔ _
  rw [View.set_slice_whole, Rect.mem_set_unit]
  exact Iff.rfl

/-- Every index of the slab is in the block of the point its row falls to: the five blocks tile the slab. -/
theorem covered6 (i : S25000x128.Idx) :
    ∃ t : Fin cfg0.N, (cfg0.win 6).flush t = true ∧ i ∈ ((cfg0.win 6).blk t).view.set := by
  have hi0 : (i 0).val < 25000 := (i 0).isLt
  have hi1 : (i 1).val < 128 := (i 1).isLt
  refine ⟨pointOf ((i 0).val / 5000) (by omega), flush0_6 _, ?_⟩
  rw [mem_blk6]
  have hI := rows_of_point (pointOf ((i 0).val / 5000) (by omega))
  have hv : (pointOf ((i 0).val / 5000) (by omega)).val = (i 0).val / 5000 := rfl
  intro a
  match a with
  | ⟨0, _⟩ => show win0_6.index _ (0 : Fin 2) * 5000 ≤ (i 0).val ∧ (i 0).val < win0_6.index _ (0 : Fin 2) * 5000 + 5000; omega
  | ⟨1, _⟩ => show win0_6.index _ (1 : Fin 2) * 128 ≤ (i 1).val ∧ (i 1).val < win0_6.index _ (1 : Fin 2) * 128 + 128; omega

/-- Window 6's array after the run. -/
theorem finalForceZ (c : Dev nD) : (dats m 0 c).arrAt 6 cfg0.N = forceArr (gapX m c) (gapY m c) (gapZ m c) (gapZ m c) :=
  (dats m 0 c).arrAt_eq_of_cover 6 _ (fun t _ => flushedForceZ m c t) covered6

end Slabs

/-! ## The input slabs and the index rows, from the arguments -/

set_option maxHeartbeats 8000000 in
/-- The first input slab: per edge, the source node's first coordinate minus the target node's. -/
theorem entryX (c : Dev nD) : (gapX m c : FVec F S25000x128 .f32) = gapSlab (coordX (m ((c : Thread nD τ).loc main_arg0))) (m ((c : Thread nD τ).loc main_arg1)) := by
  dsimp only [gapX, gapY, gapZ, V, V0]
  simp only [hostOps0, List.flatten_cons, List.flatten_nil, List.append_nil]
  after_results_simp
  rfl

set_option maxHeartbeats 8000000 in
/-- The second input slab, of the second coordinate. -/
theorem entryY (c : Dev nD) : (gapY m c : FVec F S25000x128 .f32) = gapSlab (coordY (m ((c : Thread nD τ).loc main_arg0))) (m ((c : Thread nD τ).loc main_arg1)) := by
  dsimp only [gapX, gapY, gapZ, V, V0]
  simp only [hostOps0, List.flatten_cons, List.flatten_nil, List.append_nil]
  after_results_simp
  rfl

set_option maxHeartbeats 8000000 in
/-- The third input slab, of the third coordinate. -/
theorem entryZ (c : Dev nD) : (gapZ m c : FVec F S25000x128 .f32) = gapSlab (coordZ (m ((c : Thread nD τ).loc main_arg0))) (m ((c : Thread nD τ).loc main_arg1)) := by
  dsimp only [gapX, gapY, gapZ, V, V0]
  simp only [hostOps0, List.flatten_cons, List.flatten_nil, List.append_nil]
  after_results_simp
  rfl

set_option maxHeartbeats 8000000 in
/-- The source row of the edge list, as the host operations before the region leave it. -/
theorem entrySrc (c : Dev nD) : (V0 m c (Proc.devRef .tc main_v1) : IVec S3200000 32) = srcRow (m ((c : Thread nD τ).loc main_arg1)) := by
  dsimp only [gapX, gapY, gapZ, V, V0]
  simp only [hostOps0, List.flatten_cons, List.flatten_nil, List.append_nil]
  after_results_simp
  rfl

set_option maxHeartbeats 8000000 in
/-- The target row. -/
theorem entryDst (c : Dev nD) : (V0 m c (Proc.devRef .tc main_v3) : IVec S3200000 32) = dstRow (m ((c : Thread nD τ).loc main_arg1)) := by
  dsimp only [gapX, gapY, gapZ, V, V0]
  simp only [hostOps0, List.flatten_cons, List.flatten_nil, List.append_nil]
  after_results_simp
  rfl

/-! ## The four output slabs, from the arguments -/

theorem slabEnergy (c : Dev nD) : (dats m 0 c).arrAt 3 cfg0.N
    = energyArr (gapSlab (coordX (m ((c : Thread nD τ).loc main_arg0))) (m ((c : Thread nD τ).loc main_arg1))) (gapSlab (coordY (m ((c : Thread nD τ).loc main_arg0))) (m ((c : Thread nD τ).loc main_arg1))) (gapSlab (coordZ (m ((c : Thread nD τ).loc main_arg0))) (m ((c : Thread nD τ).loc main_arg1))) := by
  rw [finalEnergy, entryX, entryY, entryZ]
theorem slabForceX (c : Dev nD) : (dats m 0 c).arrAt 4 cfg0.N
    = forceArr (gapSlab (coordX (m ((c : Thread nD τ).loc main_arg0))) (m ((c : Thread nD τ).loc main_arg1))) (gapSlab (coordY (m ((c : Thread nD τ).loc main_arg0))) (m ((c : Thread nD τ).loc main_arg1))) (gapSlab (coordZ (m ((c : Thread nD τ).loc main_arg0))) (m ((c : Thread nD τ).loc main_arg1))) (gapSlab (coordX (m ((c : Thread nD τ).loc main_arg0))) (m ((c : Thread nD τ).loc main_arg1))) := by
  rw [finalForceX, entryX, entryY, entryZ]
theorem slabForceY (c : Dev nD) : (dats m 0 c).arrAt 5 cfg0.N
    = forceArr (gapSlab (coordX (m ((c : Thread nD τ).loc main_arg0))) (m ((c : Thread nD τ).loc main_arg1))) (gapSlab (coordY (m ((c : Thread nD τ).loc main_arg0))) (m ((c : Thread nD τ).loc main_arg1))) (gapSlab (coordZ (m ((c : Thread nD τ).loc main_arg0))) (m ((c : Thread nD τ).loc main_arg1))) (gapSlab (coordY (m ((c : Thread nD τ).loc main_arg0))) (m ((c : Thread nD τ).loc main_arg1))) := by
  rw [finalForceY, entryX, entryY, entryZ]
theorem slabForceZ (c : Dev nD) : (dats m 0 c).arrAt 6 cfg0.N
    = forceArr (gapSlab (coordX (m ((c : Thread nD τ).loc main_arg0))) (m ((c : Thread nD τ).loc main_arg1))) (gapSlab (coordY (m ((c : Thread nD τ).loc main_arg0))) (m ((c : Thread nD τ).loc main_arg1))) (gapSlab (coordZ (m ((c : Thread nD τ).loc main_arg0))) (m ((c : Thread nD τ).loc main_arg1))) (gapSlab (coordZ (m ((c : Thread nD τ).loc main_arg0))) (m ((c : Thread nD τ).loc main_arg1))) := by
  rw [finalForceZ, entryX, entryY, entryZ]

/-! ## The host operations after the region -/

/-- Three slabs flattened and set side by side as the three columns of a per-edge row. -/
def stackCols (fx fy fz : FVec F Slab .f32) : FVec F Edges3 .f32 :=
  concatenate Edges3 1 [⟨EdgeCol, broadcastInDim EdgeCol ![0] (by decide) (shapeCast Edges fx (by decide))⟩,
    ⟨EdgeCol, broadcastInDim EdgeCol ![0] (by decide) (shapeCast Edges fy (by decide))⟩,
    ⟨EdgeCol, broadcastInDim EdgeCol ![0] (by decide) (shapeCast Edges fz (by decide))⟩] threeCols

set_option maxHeartbeats 16000000 in
/-- The first result after the later host operations, from any contents `W` before them: the energy slab flattened and
    summed into the graph bins of the source nodes. -/
theorem tail_energy_of (W : Valuation τ sig (Elt F)) :
    StableHlo.after hostOps1 W (Proc.devRef .tc main_v76)
      = graphEnergy (W (Proc.devRef .tc main_v1)) (W (Proc.devRef .tc main_arg2)) (shapeCast Edges (W (Proc.devRef .tc main_v58_0)) (by decide)) := by
  simp only [hostOps1]
  after_results3
  rfl

set_option maxHeartbeats 64000000 in
/-- The second result: the three force slabs stacked, subtracted at the source nodes and added at the target nodes. -/
theorem tail_force_of (W : Valuation τ sig (Elt F)) :
    StableHlo.after hostOps1 W (Proc.devRef .tc main_v92)
      = nodeForce (W (Proc.devRef .tc main_v1)) (W (Proc.devRef .tc main_v3))
          (stackCols (W (Proc.devRef .tc main_v58_1)) (W (Proc.devRef .tc main_v58_2)) (W (Proc.devRef .tc main_v58_3))) := by
  simp only [hostOps1]
  after_results3
  rfl

/-! ## The buffers the later host operations read, as the region leaves them -/

theorem left_src (c : Dev nD) : ((Pipeline.withArrays (cfgs 0).spec c (V0 m c) (fun w => (dats m 0 c).arrAt w (cfgs 0).N)) (Proc.devRef .tc main_v1) : IVec S3200000 32) = srcRow (m ((c : Thread nD τ).loc main_arg1)) :=
  (Pipeline.withArrays_of_ne _ c (V0 m c) _ main_v1 (by exact (by decide : ∀ w, Pipeline.arrRef spec0 w ≠ main_v1))).trans (entrySrc m c)
theorem left_dst (c : Dev nD) : ((Pipeline.withArrays (cfgs 0).spec c (V0 m c) (fun w => (dats m 0 c).arrAt w (cfgs 0).N)) (Proc.devRef .tc main_v3) : IVec S3200000 32) = dstRow (m ((c : Thread nD τ).loc main_arg1)) :=
  (Pipeline.withArrays_of_ne _ c (V0 m c) _ main_v3 (by exact (by decide : ∀ w, Pipeline.arrRef spec0 w ≠ main_v3))).trans (entryDst m c)
theorem left_batch (c : Dev nD) : ((Pipeline.withArrays (cfgs 0).spec c (V0 m c) (fun w => (dats m 0 c).arrAt w (cfgs 0).N)) (Proc.devRef .tc main_arg2) : IVec S100000 32) = (m ((c : Thread nD τ).loc main_arg2)) :=
  (Pipeline.withArrays_of_ne _ c (V0 m c) _ main_arg2 (by exact (by decide : ∀ w, Pipeline.arrRef spec0 w ≠ main_arg2))).trans (V_main_arg2 m c)
theorem left_energy (c : Dev nD) : ((Pipeline.withArrays (cfgs 0).spec c (V0 m c) (fun w => (dats m 0 c).arrAt w (cfgs 0).N)) (Proc.devRef .tc main_v58_0) : FVec F S25000x128 .f32)
    = energyArr (gapSlab (coordX (m ((c : Thread nD τ).loc main_arg0))) (m ((c : Thread nD τ).loc main_arg1))) (gapSlab (coordY (m ((c : Thread nD τ).loc main_arg0))) (m ((c : Thread nD τ).loc main_arg1))) (gapSlab (coordZ (m ((c : Thread nD τ).loc main_arg0))) (m ((c : Thread nD τ).loc main_arg1))) :=
  (Pipeline.withArrays_arr spec0 launch0.win.arr_inj c _ _ 3).trans (slabEnergy m c)
theorem left_forceX (c : Dev nD) : ((Pipeline.withArrays (cfgs 0).spec c (V0 m c) (fun w => (dats m 0 c).arrAt w (cfgs 0).N)) (Proc.devRef .tc main_v58_1) : FVec F S25000x128 .f32)
    = forceArr (gapSlab (coordX (m ((c : Thread nD τ).loc main_arg0))) (m ((c : Thread nD τ).loc main_arg1))) (gapSlab (coordY (m ((c : Thread nD τ).loc main_arg0))) (m ((c : Thread nD τ).loc main_arg1))) (gapSlab (coordZ (m ((c : Thread nD τ).loc main_arg0))) (m ((c : Thread nD τ).loc main_arg1))) (gapSlab (coordX (m ((c : Thread nD τ).loc main_arg0))) (m ((c : Thread nD τ).loc main_arg1))) :=
  (Pipeline.withArrays_arr spec0 launch0.win.arr_inj c _ _ 4).trans (slabForceX m c)
theorem left_forceY (c : Dev nD) : ((Pipeline.withArrays (cfgs 0).spec c (V0 m c) (fun w => (dats m 0 c).arrAt w (cfgs 0).N)) (Proc.devRef .tc main_v58_2) : FVec F S25000x128 .f32)
    = forceArr (gapSlab (coordX (m ((c : Thread nD τ).loc main_arg0))) (m ((c : Thread nD τ).loc main_arg1))) (gapSlab (coordY (m ((c : Thread nD τ).loc main_arg0))) (m ((c : Thread nD τ).loc main_arg1))) (gapSlab (coordZ (m ((c : Thread nD τ).loc main_arg0))) (m ((c : Thread nD τ).loc main_arg1))) (gapSlab (coordY (m ((c : Thread nD τ).loc main_arg0))) (m ((c : Thread nD τ).loc main_arg1))) :=
  (Pipeline.withArrays_arr spec0 launch0.win.arr_inj c _ _ 5).trans (slabForceY m c)
theorem left_forceZ (c : Dev nD) : ((Pipeline.withArrays (cfgs 0).spec c (V0 m c) (fun w => (dats m 0 c).arrAt w (cfgs 0).N)) (Proc.devRef .tc main_v58_3) : FVec F S25000x128 .f32)
    = forceArr (gapSlab (coordX (m ((c : Thread nD τ).loc main_arg0))) (m ((c : Thread nD τ).loc main_arg1))) (gapSlab (coordY (m ((c : Thread nD τ).loc main_arg0))) (m ((c : Thread nD τ).loc main_arg1))) (gapSlab (coordZ (m ((c : Thread nD τ).loc main_arg0))) (m ((c : Thread nD τ).loc main_arg1))) (gapSlab (coordZ (m ((c : Thread nD τ).loc main_arg0))) (m ((c : Thread nD τ).loc main_arg1))) :=
  (Pipeline.withArrays_arr spec0 launch0.win.arr_inj c _ _ 6).trans (slabForceZ m c)

/-! ## The two results -/

/-- The first result buffer after the run: the graph energies of the slab arrangement's edge energies. -/
theorem result_energy (c : Dev nD) : Pipeline.afterTail₀ cfgs (dats m) 0 (V0 m) [hostOps1] c main_v76
    = graphEnergy (srcRow (m ((c : Thread nD τ).loc main_arg1))) (m ((c : Thread nD τ).loc main_arg2)) (slabEdgeEnergy (m ((c : Thread nD τ).loc main_arg0)) (m ((c : Thread nD τ).loc main_arg1))) := by
  unfold Pipeline.afterTail₀
  simp only [List.flatten_cons, List.flatten_nil, List.append_nil]
  refine (tail_energy_of _).trans ?_
  rw [left_src, left_batch, left_energy]
  rfl

/-- The second result buffer after the run: the node forces of the slab arrangement's edge forces. -/
theorem result_force (c : Dev nD) : Pipeline.afterTail₀ cfgs (dats m) 0 (V0 m) [hostOps1] c main_v92
    = nodeForce (srcRow (m ((c : Thread nD τ).loc main_arg1))) (dstRow (m ((c : Thread nD τ).loc main_arg1))) (slabEdgeForce (m ((c : Thread nD τ).loc main_arg0)) (m ((c : Thread nD τ).loc main_arg1))) := by
  unfold Pipeline.afterTail₀
  simp only [List.flatten_cons, List.flatten_nil, List.append_nil]
  refine (tail_force_of _).trans ?_
  rw [left_src, left_dst, left_forceX, left_forceY, left_forceZ]
  rfl

/-! ## The run, read -/

/-- Every weakly fair execution of @main terminates without fault, with the two result buffers at the slab arrangement's
    graph energies and node forces of the argument arrays, and the arguments unchanged. -/
theorem run_value : θ_run defs (onTc (τ := τ) (main (F := F))) ⟨m, fun _ => 0, ρ⟩ (fun r => ∀ c : Dev nD,
      r.2.mem ((c.tc : Thread nD τ).loc main_v76) = graphEnergy (srcRow (m ((c : Thread nD τ).loc main_arg1))) (m ((c : Thread nD τ).loc main_arg2)) (slabEdgeEnergy (m ((c : Thread nD τ).loc main_arg0)) (m ((c : Thread nD τ).loc main_arg1)))
      ∧ r.2.mem ((c.tc : Thread nD τ).loc main_v92) = nodeForce (srcRow (m ((c : Thread nD τ).loc main_arg1))) (dstRow (m ((c : Thread nD τ).loc main_arg1))) (slabEdgeForce (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v76 (Pipeline.mem_restRefs_of main_v76 (by decide) (by decide))).trans (result_energy m c),
     ((h c).2 main_v92 (Pipeline.mem_restRefs_of main_v92 (by decide) (by decide))).trans (result_force m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩) (run_main m ρ)

end Cert.KernelIdeal.Outcome

end
-- ==== Proof.ReferenceSide.lean ====
/-
  What the row program computes: its two results as functions of the argument arrays.

  Its run ends with each result at the composed term of its host operations; that term is, operation for operation, the
  row-by-row arrangement of the edge energies and forces followed by the shared scatter-additions.
-/
import proofs.«179922_j6313601925565_1_alg».proof.Proof.Gen.ReferenceIdeal.Run
import proofs.«179922_j6313601925565_1_alg».proof.Proof.HarmonicSpec

set_option maxRecDepth 16384

noncomputable section

namespace Cert.ReferenceIdeal.RefSide

open Idealize.ShloMosaic Idealize.ShloMosaic.TcCoe Idealize.SL.Sem
open Cert.ReferenceIdeal Cert.ReferenceIdeal.Gen Cert.ReferenceIdeal.Value Cert.Harmonic

variable {F : FTy → Type} [FloatOps F]

/-- The first result: the graph energies of the row-by-row edge energies. -/
theorem energy_read (m : (ℓ : Loc nD τ sig) → Buf (Elt F) ℓ) (c : Dev nD) :
    res_main_v34 m c = graphEnergy (srcRow (m ((c.tc : Thread nD τ).loc main_arg1))) (m ((c.tc : Thread nD τ).loc main_arg2))
      (rowEdgeEnergy (m ((c.tc : Thread nD τ).loc main_arg0)) (m ((c.tc : Thread nD τ).loc main_arg1))) := by
  unfold res_main_v34
  rfl

/-- The second result: the node forces of the row-by-row edge forces. -/
theorem force_read (m : (ℓ : Loc nD τ sig) → Buf (Elt F) ℓ) (c : Dev nD) :
    res_main_v60 m c = nodeForce (srcRow (m ((c.tc : Thread nD τ).loc main_arg1))) (dstRow (m ((c.tc : Thread nD τ).loc main_arg1)))
      (rowEdgeForce (m ((c.tc : Thread nD τ).loc main_arg0)) (m ((c.tc : Thread nD τ).loc main_arg1))) := by
  unfold res_main_v60
  rfl

end Cert.ReferenceIdeal.RefSide

end
-- ==== Proof.LibRowGather.lean ====
/-
  The row gather. A rank-2 table [N, C] indexed by an [n, 1] column of row positions: the
  `stablehlo.gather` whose one offset axis (the result's axis 1) runs over the table's columns, whose
  operand axis 0 is collapsed and start-indexed, with no batching axes and the index vector on axis 1.
  Result position (p, q) reads the table at (row, q), the row being position p's start index read
  signed and clamped into the table. The rank-1 case is the library's
  `StableHlo.Predicate.gather_take`; this is the same argument with one more operand axis, on which
  the start is 0 (the axis is not in the start index map), the batching coordinate is 0 (there are no
  batching axes) and the offset coordinate is the result's coordinate on its offset axis.
-/
import Idealize.ShloMosaic.PureOps
import Idealize.ShloMosaic.Lib.ValueIdx
import Idealize.ShloMosaic.Lib.StableHlo.Predicate

namespace Idealize.ShloMosaic.RowGather

open Idealize.ShloMosaic
open Idealize.ShloMosaic.ValueIdx (ix2)
open Idealize.ShloMosaic.StableHlo.Predicate (ixP)

/-- An entry of a list known to be a singleton is that singleton's element. -/
private theorem getElem_of_eq_singleton {β : Type} {l : List β} {b : β} (hl : l = [b]) (i : Nat) (hi : i < l.length) :
    l[i]'hi = b := by
  subst hl
  have h0 : i = 0 := by simpa using hi
  subst h0
  rfl

/-- THE ROW GATHER. An indexed read `table[idx]` of a rank-2 table [N, C] by an [n, 1] column of row positions is
    the `stablehlo.gather` with offset axes [1], collapsed slice axes [0], start index map [0], the index vector on
    axis 1 and no batching axes (`hoff` … `hivd`: these dimension numbers). Result position
    (p, q) reads the table's column q in the row given by position p's start index read SIGNED and CLAMPED into
    the table (StableHLO's clamp): a negative index reads row 0, one past the end reads the
    last row. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ValueIdx.ix2 p q)
      = x (ValueIdx.ix2 ⟨min (idx (StableHlo.Predicate.ixP p)).toInt.toNat (N - 1), by omega⟩ q) := by
  unfold Host.gather
  congr 1
  funext a
  have hb : ∀ a : Fin 2, a ∉ d.operandBatchingDims := fun a => by rw [hob]; exact List.not_mem_nil
  have hbd : d.batchDims = [0] := by
    show Shape.kept _ d.offsetDims = [0]
    rw [hoff]; rfl
  have ha : a = 0 ∨ a = 1 := by
    match a with
    | ⟨0, _⟩ => exact Or.inl rfl
    | ⟨1, _⟩ => exact Or.inr rfl
  obtain rfl | rfl := ha
  · -- operand axis 0, collapsed and start-indexed: the clamped start, no batching and no offset coordinate
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ixP p)).toInt.toNat (N - 1)
    rw [hsl]
    congr 3
    congr 1
    funext b
    match b with
    | ⟨0, _⟩ =>
      -- the batch coordinate: the result's axis 0 is its one batch axis, reading the start indices' axis 0
      unfold GatherDims.siIdx
      rw [dif_neg (by rw [hivd]; simp)]
      unfold GatherDims.siCoord
      apply Fin.ext
      simp only [Fin.val_cast]
      have e : ∀ X : Fin 2, X = 0 → ((ix2 p q : (⟨2, ![n, C]⟩ : Shape).Idx) X).val = p.val := fun X hX => by
        subst hX; rfl
      exact e _ (getElem_of_eq_singleton hbd _ _)
    | ⟨1, _⟩ =>
      unfold GatherDims.siIdx
      rw [dif_pos (by rw [hivd])]
      apply Fin.ext
      show List.idxOf (0 : Fin 2) d.startIndexMap = 0
      rw [hsim]; simp
  · -- operand axis 1, kept: start 0 (not in the start index map), no batching, the offset coordinate is the
    -- result's coordinate on its one offset axis
    apply Fin.ext
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb 1), GatherDims.start, dif_neg hm,
      GatherDims.offCoord, dif_pos hk, Nat.zero_add, Nat.add_zero]
    have e : ∀ X : Fin 2, X = 1 → ((ix2 p q : (⟨2, ![n, C]⟩ : Shape).Idx) X).val = q.val := fun X hX => by
      subst hX; rfl
    exact e _ (getElem_of_eq_singleton hoff _ _)

end Idealize.ShloMosaic.RowGather
-- ==== Proof.SpringAlgebra.lean ====
/-
  Extended-real algebra of a harmonic spring: the two float words the kernel uses as constants
  (one, and a small positive softening term), the non-vanishing of a softened distance
  `sqrt s + r` with `r > 0`, and the rearrangements of products and of a three-term sum by which
  the two sides' force and energy expressions agree. Nothing here needs a finiteness hypothesis:
  multiplication on the extended reals is a commutative monoid with zero and addition a commutative
  monoid, and only those laws are used.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Pow.Real
import Mathlib.Algebra.BigOperators.Fin

open Idealize.ShloMosaic

namespace Cert.SpringAlgebra

/-- The f32 word `0x3F800000` (sign 0, exponent field 127, significand field 0) denotes
    `2^23 · 2^(127 - 127 - 23) = 1`. -/
theorem ofBits_one_f32 : Ideal.ofBits .f32 0x3F800000#32 = (1 : EReal) := by
  simp [Ideal.ofBits, Ideal.ieee]
  norm_cast
  norm_num

/-- The f32 word `0x1E3CE508` (sign 0, exponent field 60, significand field 3990792) is a normal
    number, `(2^23 + 3990792) · 2^(60 - 127 - 23)`: a positive real. -/
theorem ofBits_eps_f32 : ∃ r : ℝ, 0 < r ∧ Ideal.ofBits .f32 0x1E3CE508#32 = (r : EReal) := by
  refine ⟨((2 ^ 23 + 3990792 : ℕ) : ℝ) * (2 : ℝ) ^ ((60 : ℤ) - 127 - 23), by positivity, ?_⟩
  simp [Ideal.ofBits, Ideal.ieee]

/-- A square root plus a positive real is never zero: at `⊥` (and at a negative real, whose root is
    `⊥`) the sum is `⊥`, at `⊤` it is `⊤`, and at a nonnegative real `x` it is the real
    `√x + r > 0`. -/
theorem sqrt_add_pos_ne_zero (s : EReal) {r : ℝ} (hr : 0 < r) : Ideal.sqrt s + (r : EReal) ≠ 0 := by
  induction s using EReal.rec with
  | bot => simp
  | top => simp
  | coe x =>
    rw [Ideal.sqrt_coe]
    split_ifs with hx
    · simp
    · have h : 0 < Real.sqrt x + r := add_pos_of_nonneg_of_pos (Real.sqrt_nonneg x) hr
      rw [← EReal.coe_add]
      exact_mod_cast h.ne'

/-- (k·δ)·(1/D)·w = (k·δ)·(w/D) when D ≠ 0: both are (k·δ)·w·D⁻¹, by commutativity and
    associativity alone. -/
theorem scale_mul_eq (k δ D w : EReal) (hD : D ≠ 0) :
    ((k * δ) * Ideal.div 1 D) * w = (k * δ) * Ideal.div w D := by
  simp only [Ideal.div, if_neg hD, one_mul]
  rw [mul_assoc, mul_comm D⁻¹ w]

/-- (h·δ)·δ = h·(δ·δ): associativity of the extended reals' multiplication. -/
theorem half_mul_assoc (h δ : EReal) : (h * δ) * δ = h * (δ * δ) := mul_assoc h δ δ

/-- A sum over three coordinates started from zero is the left-nested sum of the three terms. -/
theorem sum_three (a b c : EReal) : (0 : EReal) + ∑ k : Fin 3, (![a, b, c] k) = (a + b) + c := by
  rw [Fin.sum_univ_three, zero_add]
  rfl

end Cert.SpringAlgebra
-- ==== Proof.HarmonicLaw.lean ====
/-
  The two arrangements of the harmonic lattice potential agree edge by edge, at the extended reals.

  Fix an edge q. Both arrangements read the same two nodes: the wrapped source and target indices, each read signed and
  clamped into the position table. Write x_k for the difference of the two end positions along coordinate k.
  The coordinate-by-coordinate arrangement gathers x_k from column k of the table, and lays the edges out as a slab and
  back; a reshaping there and back is the identity, and energy and force are pointwise, so the slab drops out. The
  row-by-row arrangement gathers whole rows, so its difference at (q, k) is x_k too, and its row sum of squares started
  from zero is (x_0·x_0 + x_1·x_1) + x_2·x_2, the argument of the other arrangement's square root.
  With d the common length, δ = d − 1 the stretch and D = d + ε the guarded length, what remains is algebra:
  the energies are (½·δ)·δ and ½·(δ·δ); the forces along k are ((1·δ)·(1/D))·x_k and (1·δ)·(x_k/D), equal because D, a
  square root plus a positive real, is not zero. No finiteness is assumed anywhere.
-/
import proofs.«179922_j6313601925565_1_alg».proof.Proof.HarmonicSpec
import proofs.«179922_j6313601925565_1_alg».proof.Proof.LibRowGather
import proofs.«179922_j6313601925565_1_alg».proof.Proof.SpringAlgebra
import Idealize.ShloMosaic.PureOps.Ideal.Laws
import Idealize.ShloMosaic.Lib.ValueIdx
import Idealize.ShloMosaic.Lib.Pipeline.Value
import Idealize.ShloMosaic.Lib.StableHlo.Predicate
import Mathlib.Algebra.BigOperators.Fin

noncomputable section

namespace Cert.Harmonic

open Idealize.ShloMosaic
open Idealize.ShloMosaic.ValueIdx (ix2)
open Idealize.ShloMosaic.StableHlo.Predicate (ixP)

/-! ## The nodes and coordinate differences both arrangements read -/

/-- The node at one end of edge `q`: its wrapped index read signed and clamped into the table. -/
def node (r : IVec Edges 32) (q : Fin 3200000) : Fin 100000 :=
  ⟨min ((wrap r) (ixP q)).toInt.toNat (100000 - 1), by omega⟩

/-- Coordinate `k` of the difference of the two end positions of edge `q`. -/
def gap (p : FVec Ideal Pos .f32) (e : IVec EdgePair 32) (q : Fin 3200000) (k : Fin 3) : EReal :=
  p (ix2 (node (srcRow e) q) k) - p (ix2 (node (dstRow e) q) k)

/-- Column `o` of the position table, flattened to a per-node array, reads at node `c` the table at (c, o). -/
theorem column_apply (o : Nat) (ho : o < 3) (p : FVec Ideal Pos .f32) (h : Pos.Slices ![0, o] NodeCol)
    (h' : NodeCol.ShapeCasts Nodes) (c : Fin 100000) :
    shapeCast Nodes (extractStridedSlice NodeCol ![0, o] p h) h' (Shape.Idx.ofFin c) = p (ix2 c ⟨o, ho⟩) := by
  refine (shapeCast_apply _ h' (Shape.Idx.ofFin c) (ix2 c (0 : Fin 1)) ?_).trans ?_
  · rw [Shape.rowMajor_val_two, Shape.rowMajor_val_one]
    show c.val * 1 + 0 = c.val
    omega
  · refine extractStridedSlice_apply _ _ _ _ _ (fun a => ?_)
    match a with
    | ⟨0, _⟩ => exact (Nat.zero_add _).symm
    | ⟨1, _⟩ => rfl

/-- Column 0 of the position table, per node. -/
theorem coordX_apply (p : FVec Ideal Pos .f32) (c : Fin 100000) : coordX p (Shape.Idx.ofFin c) = p (ix2 c 0) :=
  column_apply 0 (by omega) p _ _ c
/-- Column 1 of the position table, per node. -/
theorem coordY_apply (p : FVec Ideal Pos .f32) (c : Fin 100000) : coordY p (Shape.Idx.ofFin c) = p (ix2 c 1) :=
  column_apply 1 (by omega) p _ _ c
/-- Column 2 of the position table, per node. -/
theorem coordZ_apply (p : FVec Ideal Pos .f32) (c : Fin 100000) : coordZ p (Shape.Idx.ofFin c) = p (ix2 c 2) :=
  column_apply 2 (by omega) p _ _ c

/-- The flat per-edge difference of a per-node array: its value at the source node less its value at the target node. -/
theorem flatGap_apply (col : FVec Ideal Nodes .f32) (e : IVec EdgePair 32) (q : Fin 3200000) :
    subf (Host.gather take1 col (wrap (srcRow e))) (Host.gather take1 col (wrap (dstRow e))) (Shape.Idx.ofFin q)
      = col (Shape.Idx.ofFin (node (srcRow e) q)) - col (Shape.Idx.ofFin (node (dstRow e) q)) := by
  show Host.gather take1 col (wrap (srcRow e)) (Shape.Idx.ofFin q) - Host.gather take1 col (wrap (dstRow e)) (Shape.Idx.ofFin q) = _
  rw [StableHlo.Predicate.gather_take take1 rfl rfl rfl rfl col _ q (by omega),
    StableHlo.Predicate.gather_take take1 rfl rfl rfl rfl col _ q (by omega)]
  rfl

/-- The row-gathered difference at (q, k). -/
theorem gapRows_apply (p : FVec Ideal Pos .f32) (e : IVec EdgePair 32) (q : Fin 3200000) (k : Fin 3) :
    gapRows p e (ix2 q k) = gap p e q k := by
  show Host.gather takeRows p (wrap (srcRow e)) (ix2 q k) - Host.gather takeRows p (wrap (dstRow e)) (ix2 q k) = _
  rw [RowGather.gather_rows takeRows rfl rfl rfl rfl rfl p _ q k (by omega),
    RowGather.gather_rows takeRows rfl rfl rfl rfl rfl p _ q k (by omega)]
  rfl

/-! ## The slab layout is transparent to pointwise arithmetic -/

/-- Pointwise energy computed on the slab layout and flattened is the pointwise energy of the flat arrays. -/
theorem energy_unslab (a b c : FVec Ideal Edges .f32) (h : Edges.ShapeCasts Slab) (h' : Slab.ShapeCasts Edges) :
    shapeCast Edges (energyArr (shapeCast Slab a h) (shapeCast Slab b h) (shapeCast Slab c h)) h' = energyArr a b c := by
  funext i
  show energyS (shapeCast Edges (shapeCast Slab a h) h' i) (shapeCast Edges (shapeCast Slab b h) h' i)
      (shapeCast Edges (shapeCast Slab c h) h' i) = energyS (a i) (b i) (c i)
  rw [shapeCast_shapeCast, shapeCast_shapeCast, shapeCast_shapeCast]

/-- The same for a force component. -/
theorem force_unslab (a b c w : FVec Ideal Edges .f32) (h : Edges.ShapeCasts Slab) (h' : Slab.ShapeCasts Edges) :
    shapeCast Edges (forceArr (shapeCast Slab a h) (shapeCast Slab b h) (shapeCast Slab c h) (shapeCast Slab w h)) h'
      = forceArr a b c w := by
  funext i
  show FloatOps.mulf (pullS (shapeCast Edges (shapeCast Slab a h) h' i) (shapeCast Edges (shapeCast Slab b h) h' i)
      (shapeCast Edges (shapeCast Slab c h) h' i)) (shapeCast Edges (shapeCast Slab w h) h' i)
    = FloatOps.mulf (pullS (a i) (b i) (c i)) (w i)
  rw [shapeCast_shapeCast, shapeCast_shapeCast, shapeCast_shapeCast, shapeCast_shapeCast]

/-! ## The slab arrangement's energy at an edge -/

/-- The slab arrangement's energy at edge `q`: the one-edge energy of the three coordinate differences. -/
theorem slabEdgeEnergy_apply (p : FVec Ideal Pos .f32) (e : IVec EdgePair 32) (q : Fin 3200000) :
    slabEdgeEnergy p e (Shape.Idx.ofFin q) = energyS (gap p e q 0) (gap p e q 1) (gap p e q 2) := by
  unfold slabEdgeEnergy gapSlab
  rw [energy_unslab]
  simp only [energyArr, flatGap_apply, coordX_apply, coordY_apply, coordZ_apply]
  rfl

/-! ## The row arrangement at an edge -/

/-- The row sum drops axis 1 of a [3200000, 3] array, leaving one entry per edge. -/
theorem alongRow' : Edges3.Reduces [1] Edges := by decide

/-- The index of the row sum's term `k` at edge `q` is (q, k). -/
theorem lift_row (q : Fin 3200000) (k : Fin 3) : alongRow'.lift (Shape.Idx.ofFin q) k = ix2 q k := by
  funext c
  apply Fin.ext
  show alongRow'.liftVal (Shape.Idx.ofFin q) k.val c = (ix2 q k c).val
  unfold Shape.Reduces.liftVal
  match c with
  | ⟨0, _⟩ => rfl
  | ⟨1, _⟩ => rfl

/-! ## The one-edge scalars at the extended reals: length, stretch, energy and pull written out -/

theorem lenS_def (x y z : EReal) : lenS (F := Ideal) x y z = Ideal.sqrt ((x * x + y * y) + z * z) := rfl
theorem stretchS_def (x y z : EReal) :
    stretchS (F := Ideal) x y z = lenS (F := Ideal) x y z - Ideal.ofBits .f32 0x3F800000#32 := rfl
theorem energyS_def (x y z : EReal) :
    energyS (F := Ideal) x y z
      = (Ideal.ofBits .f32 0x3F000000#32 * stretchS (F := Ideal) x y z) * stretchS (F := Ideal) x y z := rfl
theorem pullS_def (x y z : EReal) :
    pullS (F := Ideal) x y z
      = (Ideal.ofBits .f32 0x3F800000#32 * stretchS (F := Ideal) x y z)
        * Ideal.div (Ideal.ofBits .f32 0x3F800000#32) (lenS (F := Ideal) x y z + Ideal.ofBits .f32 0x1E3CE508#32) := rfl

/-- A scalar constant spread over a shape reads, at every index, the extended real its word encodes. -/
theorem splat_apply {s : Shape} (h : Scalar0.BroadcastsInDim s ![]) (b : BitVec 32) (j : s.Idx) :
    broadcastInDim s ![] h (constant (F := Ideal) Scalar0 .f32 b) j = Ideal.ofBits .f32 b := rfl

/-- The row sum of squares of a [3200000, 3] array, started from zero, at edge `q`. -/
theorem rowSum_apply (G : FVec Ideal Edges3 .f32) (q : Fin 3200000) :
    Ideal.hostReduceAdd alongRow (mulf G G) (Ideal.ofBits .f32 0x00000000#32) (Shape.Idx.ofFin q)
      = (G (ix2 q 0) * G (ix2 q 0) + G (ix2 q 1) * G (ix2 q 1)) + G (ix2 q 2) * G (ix2 q 2) := by
  rw [Ideal.hostReduceAdd_single alongRow alongRow', Ideal.ofBits_zero_f32, zero_add]
  refine (Fin.sum_univ_three _).trans ?_
  simp only [lift_row, ValueIdx.mulf_apply]

/-- The host's square root of an array, at an index. -/
theorem hostSqrt_apply {s : Shape} (Y : FVec Ideal s .f32) (j : s.Idx) : Host.sqrt Y j = Ideal.sqrt (Y j) := rfl

/-- The host's row sum of a [3200000, 3] array, at an index: the exact sum from the initial value's one element. -/
theorem hostRowSum_apply (X : FVec Ideal Edges3 .f32) (c : FVec Ideal Scalar0 .f32) (hu : 0 < Scalar0.numel) (j : Edges.Idx) :
    Host.reduceAdd X c alongRow hu j = Ideal.hostReduceAdd alongRow X (c (Shape.Idx.first hu)) j := rfl

/-- The row arrangement's edge lengths: the host's square root of the host's row sum of squares from zero. -/
theorem rowLen_eq (p : FVec Ideal Pos .f32) (e : IVec EdgePair 32) :
    rowLen p e = Host.sqrt (Host.reduceAdd (mulf (gapRows p e) (gapRows p e)) (constant Scalar0 .f32 0x00000000#32)
      alongRow (by decide)) := rfl

/-- The row arrangement's length at edge `q` is the one-edge length of the three coordinate differences. -/
theorem rowLen_apply (p : FVec Ideal Pos .f32) (e : IVec EdgePair 32) (q : Fin 3200000) :
    rowLen p e (Shape.Idx.ofFin q) = lenS (gap p e q 0) (gap p e q 1) (gap p e q 2) := by
  rw [rowLen_eq, hostSqrt_apply, hostRowSum_apply, ValueIdx.constant_apply, rowSum_apply,
    gapRows_apply, gapRows_apply, gapRows_apply, lenS_def]

/-- The row arrangement's stretch: the length less the rest length, spread over the edges. -/
theorem rowStretch_eq (p : FVec Ideal Pos .f32) (e : IVec EdgePair 32) :
    rowStretch p e = subf (rowLen p e) (broadcastInDim Edges ![] (by decide) (constant Scalar0 .f32 0x3F800000#32)) := rfl

/-- The row arrangement's stretch at edge `q` is the one-edge stretch of the three coordinate differences. -/
theorem rowStretch_apply (p : FVec Ideal Pos .f32) (e : IVec EdgePair 32) (q : Fin 3200000) :
    rowStretch p e (Shape.Idx.ofFin q) = stretchS (gap p e q 0) (gap p e q 1) (gap p e q 2) := by
  rw [rowStretch_eq, ValueIdx.subf_apply, splat_apply, rowLen_apply, stretchS_def]

/-- The row arrangement's energies: one half, spread over the edges, times the square of the stretch. -/
theorem rowEdgeEnergy_eq' (p : FVec Ideal Pos .f32) (e : IVec EdgePair 32) :
    rowEdgeEnergy p e = mulf (broadcastInDim Edges ![] (by decide) (constant Scalar0 .f32 0x3F000000#32))
      (mulf (rowStretch p e) (rowStretch p e)) := rfl

/-- The two arrangements give every edge the same energy: (½·δ)·δ = ½·(δ·δ). -/
theorem slabEdgeEnergy_eq (p : FVec Ideal Pos .f32) (e : IVec EdgePair 32) : slabEdgeEnergy p e = rowEdgeEnergy p e := by
  funext j
  obtain ⟨q, rfl⟩ : ∃ q : Fin 3200000, j = Shape.Idx.ofFin q := ⟨j 0, Shape.Idx.eq_ofFin j⟩
  rw [slabEdgeEnergy_apply, rowEdgeEnergy_eq', ValueIdx.mulf_apply, ValueIdx.mulf_apply, splat_apply, rowStretch_apply,
    energyS_def]
  exact SpringAlgebra.half_mul_assoc _ _

/-! ## The forces -/

/-- A per-edge array spread first to a column and then along rows of three reads, at (q, k), its entry `q`. -/
theorem colSpread_apply (v : FVec Ideal Edges .f32) (h1 : Edges.BroadcastsInDim EdgeCol ![0])
    (h2 : EdgeCol.BroadcastsInDim Edges3 ![0, 1]) (q : Fin 3200000) (k : Fin 3) :
    broadcastInDim Edges3 ![0, 1] h2 (broadcastInDim EdgeCol ![0] h1 v) (ix2 q k) = v (Shape.Idx.ofFin q) := by
  refine (broadcastInDim_apply _ h2 _ (ix2 q k) (ix2 q (0 : Fin 1)) ?_).trans
    (broadcastInDim_apply _ h1 _ _ (Shape.Idx.ofFin q) ?_)
  · intro a
    match a with
    | ⟨0, _⟩ =>
      show q.val = if (3200000 : Nat) = 1 then 0 else q.val
      rw [if_neg (by omega)]
    | ⟨1, _⟩ =>
      show (0 : Nat) = if (1 : Nat) = 1 then 0 else k.val
      rw [if_pos rfl]
  · intro a
    have ha : a = 0 := Subsingleton.elim _ _
    subst ha
    show q.val = if (3200000 : Nat) = 1 then 0 else q.val
    rw [if_neg (by omega)]

/-- A per-edge array as a column reads, at (q, 0), its entry `q`. -/
theorem col_apply (v : FVec Ideal Edges .f32) (h1 : Edges.BroadcastsInDim EdgeCol ![0]) (q : Fin 3200000) :
    broadcastInDim EdgeCol ![0] h1 v (ix2 q (0 : Fin 1)) = v (Shape.Idx.ofFin q) := by
  refine broadcastInDim_apply _ h1 _ _ (Shape.Idx.ofFin q) ?_
  intro a
  have ha : a = 0 := Subsingleton.elim _ _
  subst ha
  show q.val = if (3200000 : Nat) = 1 then 0 else q.val
  rw [if_neg (by omega)]

/-- One force column of the slab arrangement, its slab layouts written out. -/
theorem forceCol_eq (p : FVec Ideal Pos .f32) (e : IVec EdgePair 32) (col : FVec Ideal Nodes .f32) :
    forceCol p e (gapSlab col e)
      = broadcastInDim EdgeCol ![0] (by decide)
          (shapeCast Edges (forceArr
            (shapeCast Slab (subf (Host.gather take1 (coordX p) (wrap (srcRow e))) (Host.gather take1 (coordX p) (wrap (dstRow e)))) (by decide))
            (shapeCast Slab (subf (Host.gather take1 (coordY p) (wrap (srcRow e))) (Host.gather take1 (coordY p) (wrap (dstRow e)))) (by decide))
            (shapeCast Slab (subf (Host.gather take1 (coordZ p) (wrap (srcRow e))) (Host.gather take1 (coordZ p) (wrap (dstRow e)))) (by decide))
            (shapeCast Slab (subf (Host.gather take1 col (wrap (srcRow e))) (Host.gather take1 col (wrap (dstRow e)))) (by decide)))
            (by decide)) := rfl

/-- A force component at an index: the pull of the three differences there times the fourth array's entry. -/
theorem forceArr_apply {s : Shape} (X Y Z W : FVec Ideal s .f32) (i : s.Idx) :
    forceArr X Y Z W i = pullS (X i) (Y i) (Z i) * W i := rfl

/-- One force component of the slab arrangement, at edge `q`: the pull times the difference along the coordinate. -/
theorem forceCol_apply (p : FVec Ideal Pos .f32) (e : IVec EdgePair 32) (col : FVec Ideal Nodes .f32) (kk : Fin 3)
    (hcol : ∀ c : Fin 100000, col (Shape.Idx.ofFin c) = p (ix2 c kk)) (q : Fin 3200000) :
    forceCol p e (gapSlab col e) (ix2 q (0 : Fin 1))
      = pullS (gap p e q 0) (gap p e q 1) (gap p e q 2) * gap p e q kk := by
  rw [forceCol_eq, col_apply, force_unslab, forceArr_apply, flatGap_apply, flatGap_apply, flatGap_apply, flatGap_apply,
    coordX_apply, coordX_apply, coordY_apply, coordY_apply, coordZ_apply, coordZ_apply, hcol, hcol]
  rfl

/-- The slab arrangement's forces: the three component columns side by side. -/
theorem slabEdgeForce_def (p : FVec Ideal Pos .f32) (e : IVec EdgePair 32) :
    slabEdgeForce p e
      = concatenate Edges3 1 [⟨EdgeCol, forceCol p e (gapSlab (coordX p) e)⟩, ⟨EdgeCol, forceCol p e (gapSlab (coordY p) e)⟩,
          ⟨EdgeCol, forceCol p e (gapSlab (coordZ p) e)⟩] threeCols := rfl

/-- Off the stacking axis a column's index (q, 0) and the stacked index (q, k) have the same coordinates. -/
theorem col_coords (q : Fin 3200000) (k : Fin 3) (hr : EdgeCol.rank = Edges3.rank) :
    ∀ b : Fin EdgeCol.rank, b.cast hr ≠ (1 : Fin 2) → ((ix2 q (0 : Fin 1) : EdgeCol.Idx) b).val = ((ix2 q k : Edges3.Idx) (b.cast hr)).val := by
  intro b hb
  match b with
  | ⟨0, _⟩ => rfl
  | ⟨1, _⟩ => exact absurd rfl hb

/-- Three one-entry columns side by side, read at (q, 0): the first column at (q, 0). -/
theorem stack_apply0 (c0 c1 c2 : FVec Ideal EdgeCol .f32) (q : Fin 3200000) :
    concatenate Edges3 1 [⟨EdgeCol, c0⟩, ⟨EdgeCol, c1⟩, ⟨EdgeCol, c2⟩] threeCols (ix2 q (0 : Fin 3)) = c0 (ix2 q (0 : Fin 1)) := by
  apply concatenate_apply_piece (t := Edges3) (k := 0) (s₁ := EdgeCol) (x₁ := c0) (pre := 0) (i := ix2 q (0 : Fin 1)) (hr := rfl)
  case hk => simp
  case hxk => rfl
  case hpre => rfl
  case hi => exact col_coords q _ rfl
  case ha => rfl
/-- … read at (q, 1): the second column at (q, 0). -/
theorem stack_apply1 (c0 c1 c2 : FVec Ideal EdgeCol .f32) (q : Fin 3200000) :
    concatenate Edges3 1 [⟨EdgeCol, c0⟩, ⟨EdgeCol, c1⟩, ⟨EdgeCol, c2⟩] threeCols (ix2 q (1 : Fin 3)) = c1 (ix2 q (0 : Fin 1)) := by
  apply concatenate_apply_piece (t := Edges3) (k := 1) (s₁ := EdgeCol) (x₁ := c1) (pre := 1) (i := ix2 q (0 : Fin 1)) (hr := rfl)
  case hk => simp
  case hxk => rfl
  case hpre => rfl
  case hi => exact col_coords q _ rfl
  case ha => rfl
/-- … read at (q, 2): the third column at (q, 0). -/
theorem stack_apply2 (c0 c1 c2 : FVec Ideal EdgeCol .f32) (q : Fin 3200000) :
    concatenate Edges3 1 [⟨EdgeCol, c0⟩, ⟨EdgeCol, c1⟩, ⟨EdgeCol, c2⟩] threeCols (ix2 q (2 : Fin 3)) = c2 (ix2 q (0 : Fin 1)) := by
  apply concatenate_apply_piece (t := Edges3) (k := 2) (s₁ := EdgeCol) (x₁ := c2) (pre := 2) (i := ix2 q (0 : Fin 1)) (hr := rfl)
  case hk => simp
  case hxk => rfl
  case hpre => rfl
  case hi => exact col_coords q _ rfl
  case ha => rfl

/-- The slab arrangement's force at (q, k): the pull times the difference along coordinate `k`. -/
theorem slabEdgeForce_apply (p : FVec Ideal Pos .f32) (e : IVec EdgePair 32) (q : Fin 3200000) (k : Fin 3) :
    slabEdgeForce p e (ix2 q k) = pullS (gap p e q 0) (gap p e q 1) (gap p e q 2) * gap p e q k := by
  rw [slabEdgeForce_def]
  match k with
  | ⟨0, _⟩ => exact (stack_apply0 _ _ _ q).trans (forceCol_apply p e (coordX p) 0 (coordX_apply p) q)
  | ⟨1, _⟩ => exact (stack_apply1 _ _ _ q).trans (forceCol_apply p e (coordY p) 1 (coordY_apply p) q)
  | ⟨2, _⟩ => exact (stack_apply2 _ _ _ q).trans (forceCol_apply p e (coordZ p) 2 (coordZ_apply p) q)

/-- The row arrangement's forces, written out. -/
theorem rowEdgeForce_def (p : FVec Ideal Pos .f32) (e : IVec EdgePair 32) :
    rowEdgeForce p e
      = mulf
          (broadcastInDim Edges3 ![0, 1] (by decide) (broadcastInDim EdgeCol ![0] (by decide)
            (mulf (broadcastInDim Edges ![] (by decide) (constant Scalar0 .f32 0x3F800000#32)) (rowStretch p e))))
          (Host.divf (gapRows p e)
            (broadcastInDim Edges3 ![0, 1] (by decide) (broadcastInDim EdgeCol ![0] (by decide)
              (addf (rowLen p e) (broadcastInDim Edges ![] (by decide) (constant Scalar0 .f32 0x1E3CE508#32)))))) := rfl

/-- The host's quotient of two arrays, at an index. -/
theorem hostDivf_apply {s : Shape} (X Y : FVec Ideal s .f32) (j : s.Idx) : Host.divf X Y j = Ideal.div (X j) (Y j) := rfl

/-- The row arrangement's force at (q, k): the stretch times the difference along coordinate `k` over the guarded length. -/
theorem rowEdgeForce_apply (p : FVec Ideal Pos .f32) (e : IVec EdgePair 32) (q : Fin 3200000) (k : Fin 3) :
    rowEdgeForce p e (ix2 q k)
      = (Ideal.ofBits .f32 0x3F800000#32 * stretchS (F := Ideal) (gap p e q 0) (gap p e q 1) (gap p e q 2))
        * Ideal.div (gap p e q k)
            (lenS (F := Ideal) (gap p e q 0) (gap p e q 1) (gap p e q 2) + Ideal.ofBits .f32 0x1E3CE508#32) := by
  rw [rowEdgeForce_def, ValueIdx.mulf_apply, colSpread_apply, hostDivf_apply, colSpread_apply, ValueIdx.mulf_apply,
    ValueIdx.addf_apply, splat_apply, splat_apply, rowStretch_apply, rowLen_apply, gapRows_apply]

/-- The two arrangements give every edge the same force: ((1·δ)·(1/D))·w = (1·δ)·(w/D), the guarded length
    D = d + ε being a square root plus a positive real, hence not zero. -/
theorem slabEdgeForce_eq (p : FVec Ideal Pos .f32) (e : IVec EdgePair 32) : slabEdgeForce p e = rowEdgeForce p e := by
  funext j
  obtain ⟨q, k, rfl⟩ : ∃ (q : Fin 3200000) (k : Fin 3), j = ix2 q k := ⟨j 0, j 1, ValueIdx.eq_ix2 j⟩
  rw [slabEdgeForce_apply, rowEdgeForce_apply, pullS_def]
  obtain ⟨r, hr, heps⟩ := SpringAlgebra.ofBits_eps_f32
  have hD : lenS (F := Ideal) (gap p e q 0) (gap p e q 1) (gap p e q 2) + Ideal.ofBits .f32 0x1E3CE508#32 ≠ 0 := by
    rw [heps, lenS_def]
    exact SpringAlgebra.sqrt_add_pos_ne_zero _ hr
  rw [SpringAlgebra.ofBits_one_f32]
  exact SpringAlgebra.scale_mul_eq _ _ _ _ hD

end Cert.Harmonic

end
-- ==== Proof.lean ====
/-
  The certificate of the harmonic lattice potential: a program that evaluates the edge energies and forces on a
  [25000, 128] slab inside a pipelined region, against a program that evaluates them row by row on the host.

  Frames. The slab program — at the word level and at the ideal instance alike — is host operations, one region over a
  grid of five points whose body loads three whole blocks and stores four, and host operations again; it runs to its end
  and writes no argument array. The row program is host operations only, and its run read back gives its frame.
  Preserves. The ideal pass rewrote no operation.
  Algebraic. At the ideal instance both programs end with the same shared scatter-additions applied to their edge
  energies and edge forces, and those are equal index by index on the extended reals: the two arrangements read the same
  position entries; a sum of three squares is the same in either grouping; ½·δ·δ is associative; and δ·(1/D)·w = δ·(w/D)
  because D, a square root plus a positive real, is never zero. No finiteness of the positions is used.
-/
import proofs.«179922_j6313601925565_1_alg».proof.Defs
import proofs.«179922_j6313601925565_1_alg».proof.Proof.Gen.Kernel
import proofs.«179922_j6313601925565_1_alg».proof.Proof.Gen.KernelIdeal
import proofs.«179922_j6313601925565_1_alg».proof.Proof.Gen.ReferenceIdeal
import proofs.«179922_j6313601925565_1_alg».proof.Proof.Gen.Pre_finite_inputs
import proofs.«179922_j6313601925565_1_alg».proof.Proof.KernelRegion
import proofs.«179922_j6313601925565_1_alg».proof.Proof.KernelIdealOutcome
import proofs.«179922_j6313601925565_1_alg».proof.Proof.ReferenceSide
import proofs.«179922_j6313601925565_1_alg».proof.Proof.HarmonicLaw
import Idealize.ShloMosaic.Adequacy
import Idealize.ShloMosaic.Init

noncomputable section

namespace Cert.Proof

open Idealize.ShloMosaic Idealize.SL.Sem Cert.Harmonic

/-- The word-level slab program runs to its end and leaves its arguments unchanged. -/
theorem frame_kernel : Cert.frame_Kernel := fun m ρ _ => Cert.Kernel.Region.args_kept m ρ

/-- So does its idealization. -/
theorem frame_kernelIdeal : Cert.frame_KernelIdeal := fun m ρ _ => Cert.KernelIdeal.Region.args_kept m ρ

/-- The row program's run, with its results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the graph energies and node forces of equal edge energies and edge forces. -/
theorem algebraic : Cert.algebraic_KernelIdeal_ReferenceIdeal := by
  intro m ρ m' ρ' _ hagree
  refine ⟨_, _, Cert.KernelIdeal.Outcome.run_value (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.RefSide.energy_read, (hagree c).1, (hagree c).2.1, (hagree c).2.2, ← slabEdgeEnergy_eq]
  · rw [Cert.ReferenceIdeal.RefSide.force_read, (hagree c).1, (hagree c).2.1, ← slabEdgeForce_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
